-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S3x64x64 .f32) (main_arg6 : FVec F S3x64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg5
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg6
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg7 main_arg8 main_v33

def fn {F : FTy → Type} [FloatOps F] (main_arg0 : FVec F S524288x128 .f32) (main_arg1 : FVec F S3x64x64 .f32) (main_arg2 : FVec F S3x64 .f32) (main_arg3 : FVec F S64x64 .f32) (main_arg4 : FVec F S64 .f32) (main_arg5 : FVec F S3x64x64 .f32) (main_arg6 : FVec F S3x64 .f32) (main_arg7 : FVec F S64x64 .f32) (main_arg8 : FVec F S64 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg2
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S524288x128 : Shape := ⟨2, ![524288, 128]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S524288x1 : Shape := ⟨2, ![524288, 1]⟩
abbrev S8192x128 : Shape := ⟨2, ![8192, 128]⟩
abbrev S8192x1 : Shape := ⟨2, ![8192, 1]⟩
abbrev S8192x64 : Shape := ⟨2, ![8192, 64]⟩
abbrev S1x64x64 : Shape := ⟨3, ![1, 64, 64]⟩
abbrev S1x64 : Shape := ⟨2, ![1, 64]⟩
abbrev S8192 : Shape := ⟨1, ![8192]⟩
abbrev S524288 : Shape := ⟨1, ![524288]⟩

abbrev nBuf : Space → Nat
  | .hbm => 16
  | .vmem => 14
  | .smem => 0
  | _ => 0

abbrev bufTy : (tb : Table) → Fin (tcTables nBuf tb) → BufTy
  | .hbm, ⟨0, _⟩ => ⟨S524288x128, .f32⟩
  | .hbm, ⟨1, _⟩ => ⟨S3x64x64, .f32⟩
  | .hbm, ⟨2, _⟩ => ⟨S3x64, .f32⟩
  | .hbm, ⟨3, _⟩ => ⟨S64x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x64, .f32⟩
  | .hbm, ⟨8, _⟩ => ⟨S64, .f32⟩
  | .hbm, ⟨9, _⟩ => ⟨S3x64x64, .f32⟩
  | .hbm, ⟨10, _⟩ => ⟨S64x64, .f32⟩
  | .hbm, ⟨11, _⟩ => ⟨S3x64x64, .f32⟩
  | .hbm, ⟨12, _⟩ => ⟨S64x64, .f32⟩
  | .hbm, ⟨13, _⟩ => ⟨S524288x128, .f32⟩
  | .hbm, ⟨14, _⟩ => ⟨S524288x1, .f32⟩
  | .hbm, ⟨15, _⟩ => ⟨S524288, .f32⟩
  | .local _ .vmem, ⟨0, _⟩ => ⟨S8192x128, .f32⟩
  | .local _ .vmem, ⟨1, _⟩ => ⟨S8192x128, .f32⟩
  | .local _ .vmem, ⟨2, _⟩ => ⟨S3x64x64, .f32⟩
  | .local _ .vmem, ⟨3, _⟩ => ⟨S3x64, .f32⟩
  | .local _ .vmem, ⟨4, _⟩ => ⟨S64x64, .f32⟩
  | .local _ .vmem, ⟨5, _⟩ => ⟨S64, .f32⟩
  | .local _ .vmem, ⟨6, _⟩ => ⟨S3x64x64, .f32⟩
  | .local _ .vmem, ⟨7, _⟩ => ⟨S3x64, .f32⟩
  | .local _ .vmem, ⟨8, _⟩ => ⟨S64x64, .f32⟩
  | .local _ .vmem, ⟨9, _⟩ => ⟨S64, .f32⟩
  | .local _ .vmem, ⟨10, _⟩ => ⟨S8192x128, .f32⟩
  | .local _ .vmem, ⟨11, _⟩ => ⟨S8192x128, .f32⟩
  | .local _ .vmem, ⟨12, _⟩ => ⟨S8192x1, .f32⟩
  | .local _ .vmem, ⟨13, _⟩ => ⟨S8192x1, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8192x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S3x64x64_S3x64x64_0_2_1 : S3x64x64.Transposes [0, 2, 1] S3x64x64
  transposes_S64x64_S64x64_1_0 : S64x64.Transposes [1, 0] S64x64
  inb_S8192x128_S8192x128_0_0 : ∀ a, (![0, 0] : Fin 2 → Nat) a + S8192x128.size a ≤ S8192x128.size a
  h_S8192x128 : 0 < S8192x128.numel
  slices_S8192x128_o0_0_S8192x64 : S8192x128.Slices ![0, 0] S8192x64
  slices_S8192x128_o0_64_S8192x64 : S8192x128.Slices ![0, 64] S8192x64
  inb_S3x64x64_S3x64x64_0_0_0 : ∀ a, (![0, 0, 0] : Fin 3 → Nat) a + S3x64x64.size a ≤ S3x64x64.size a
  h_S3x64x64 : 0 < S3x64x64.numel
  shapeCasts_S3x64x64_S3x64x64 : S3x64x64.ShapeCasts S3x64x64
  inb_S3x64_S3x64_0_0 : ∀ a, (![0, 0] : Fin 2 → Nat) a + S3x64.size a ≤ S3x64.size a
  h_S3x64 : 0 < S3x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  slices_S3x64x64_o0_0_0_S1x64x64 : S3x64x64.Slices ![0, 0, 0] S1x64x64
  shapeCasts_S1x64x64_S64x64 : S1x64x64.ShapeCasts S64x64
  slices_S3x64_o0_0_S1x64 : S3x64.Slices ![0, 0] S1x64
  shapeCasts_S1x64_S64 : S1x64.ShapeCasts S64
  shapeCasts_S64_S1x64 : S64.ShapeCasts S1x64
  broadcasts_S1x64_S8192x64 : S1x64.Broadcasts S8192x64
  slices_S3x64x64_o1_0_0_S1x64x64 : S3x64x64.Slices ![1, 0, 0] S1x64x64
  slices_S3x64_o1_0_S1x64 : S3x64.Slices ![1, 0] S1x64
  slices_S3x64x64_o2_0_0_S1x64x64 : S3x64x64.Slices ![2, 0, 0] S1x64x64
  slices_S3x64_o2_0_S1x64 : S3x64.Slices ![2, 0] S1x64
  concatenates_S8192x64_S8192x64_S8192x128_d1 : Shape.Concatenates [S8192x64, S8192x64] S8192x128 1
  reduces_S8192x64_S8192 : S8192x64.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S524288x1_S524288 : S524288x1.ShapeCasts S524288
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64x64.size a ≤ S3x64x64.size a
  hwx0_1 : ∀ i : grid0.Coords, EltTy.bits .f32 = 32 ∨ (Rect.block (s := S3x64x64) S3x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64x64.size a ≤ S3x64x64.size a
  hwx0_5 : ∀ i : grid0.Coords, EltTy.bits .f32 = 32 ∨ (Rect.block (s := S3x64x64) S3x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64.size a ≤ S3x64.size a
  hwx0_6 : ∀ i : grid0.Coords, EltTy.bits .f32 = 32 ∨ (Rect.block (s := S3x64) S3x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x128.size a ≤ S524288x128.size a
  hwx0_9 : ∀ i : grid0.Coords, EltTy.bits .f32 = 32 ∨ (Rect.block (s := S524288x128) S8192x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8192x1.size a ≤ S524288x1.size a
  hwx0_10 : ∀ i : grid0.Coords, EltTy.bits .f32 = 32 ∨ (Rect.block (s := S524288x1) S8192x1.size (cc0_transform_10 i) (hinb0_10 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S3x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S8192x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S8192x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S524288x128 : Shape := ⟨2, ![524288, 128]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S524288x64 : Shape := ⟨2, ![524288, 64]⟩
abbrev S1x64x64 : Shape := ⟨3, ![1, 64, 64]⟩
abbrev S1x64 : Shape := ⟨2, ![1, 64]⟩
abbrev S_ : Shape := ⟨0, ![]⟩
abbrev S524288 : Shape := ⟨1, ![524288]⟩

abbrev nBuf : Space → Nat
  | .hbm => 107
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S3x64x64, .f32⟩
  | .hbm, ⟨2, _⟩ => ⟨S3x64, .f32⟩
  | .hbm, ⟨3, _⟩ => ⟨S64x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x64, .f32⟩
  | .hbm, ⟨8, _⟩ => ⟨S64, .f32⟩
  | .hbm, ⟨9, _⟩ => ⟨S524288x64, .f32⟩
  | .hbm, ⟨10, _⟩ => ⟨S524288x64, .f32⟩
  | .hbm, ⟨11, _⟩ => ⟨S1x64x64, .f32⟩
  | .hbm, ⟨12, _⟩ => ⟨S64x64, .f32⟩
  | .hbm, ⟨13, _⟩ => ⟨S64x64, .f32⟩
  | .hbm, ⟨14, _⟩ => ⟨S524288x64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S524288x64, .f32⟩
  | .hbm, ⟨19, _⟩ => ⟨S524288x64, .f32⟩
  | .hbm, ⟨20, _⟩ => ⟨S_, .f32⟩
  | .hbm, ⟨21, _⟩ => ⟨S524288x64, .f32⟩
  | .hbm, ⟨22, _⟩ => ⟨S524288x64, .f32⟩
  | .hbm, ⟨23, _⟩ => ⟨S1x64x64, .f32⟩
  | .hbm, ⟨24, _⟩ => ⟨S64x64, .f32⟩
  | .hbm, ⟨25, _⟩ => ⟨S64x64, .f32⟩
  | .hbm, ⟨26, _⟩ => ⟨S524288x64, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S524288x64, .f32⟩
  | .hbm, ⟨31, _⟩ => ⟨S524288x64, .f32⟩
  | .hbm, ⟨32, _⟩ => ⟨S_, .f32⟩
  | .hbm, ⟨33, _⟩ => ⟨S524288x64, .f32⟩
  | .hbm, ⟨34, _⟩ => ⟨S524288x64, .f32⟩
  | .hbm, ⟨35, _⟩ => ⟨S1x64x64, .f32⟩
  | .hbm, ⟨36, _⟩ => ⟨S64x64, .f32⟩
  | .hbm, ⟨37, _⟩ => ⟨S64x64, .f32⟩
  | .hbm, ⟨38, _⟩ => ⟨S524288x64, .f32⟩
  | .hbm, ⟨39, _⟩ => ⟨S1x64, .f32⟩
  | .hbm, ⟨40, _⟩ => ⟨S64, .f32⟩
  | .hbm, ⟨41, _⟩ => ⟨S1x64, .f32⟩
  | .hbm, ⟨42, _⟩ => ⟨S524288x64, .f32⟩
  | .hbm, ⟨43, _⟩ => ⟨S524288x64, .f32⟩
  | .hbm, ⟨44, _⟩ => ⟨S_, .f32⟩
  | .hbm, ⟨45, _⟩ => ⟨S524288x64, .f32⟩
  | .hbm, ⟨46, _⟩ => ⟨S524288x64, .f32⟩
  | .hbm, ⟨47, _⟩ => ⟨S64x64, .f32⟩
  | .hbm, ⟨48, _⟩ => ⟨S524288x64, .f32⟩
  | .hbm, ⟨49, _⟩ => ⟨S1x64, .f32⟩
  | .hbm, ⟨50, _⟩ => ⟨S524288x64, .f32⟩
  | .hbm, ⟨51, _⟩ => ⟨S524288x64, .f32⟩
  | .hbm, ⟨52, _⟩ => ⟨S1x64x64, .f32⟩
  | .hbm, ⟨53, _⟩ => ⟨S64x64, .f32⟩
  | .hbm, ⟨54, _⟩ => ⟨S64x64, .f32⟩
  | .hbm, ⟨55, _⟩ => ⟨S524288x64, .f32⟩
  | .hbm, ⟨56, _⟩ => ⟨S1x64, .f32⟩
  | .hbm, ⟨57, _⟩ => ⟨S64, .f32⟩
  | .hbm, ⟨58, _⟩ => ⟨S1x64, .f32⟩
  | .hbm, ⟨59, _⟩ => ⟨S524288x64, .f32⟩
  | .hbm, ⟨60, _⟩ => ⟨S524288x64, .f32⟩
  | .hbm, ⟨61, _⟩ => ⟨S_, .f32⟩
  | .hbm, ⟨62, _⟩ => ⟨S524288x64, .f32⟩
  | .hbm, ⟨63, _⟩ => ⟨S524288x64, .f32⟩
  | .hbm, ⟨64, _⟩ => ⟨S1x64x64, .f32⟩
  | .hbm, ⟨65, _⟩ => ⟨S64x64, .f32⟩
  | .hbm, ⟨66, _⟩ => ⟨S64x64, .f32⟩
  | .hbm, ⟨67, _⟩ => ⟨S524288x64, .f32⟩
  | .hbm, ⟨68, _⟩ => ⟨S1x64, .f32⟩
  | .hbm, ⟨69, _⟩ => ⟨S64, .f32⟩
  | .hbm, ⟨70, _⟩ => ⟨S1x64, .f32⟩
  | .hbm, ⟨71, _⟩ => ⟨S524288x64, .f32⟩
  | .hbm, ⟨72, _⟩ => ⟨S524288x64, .f32⟩
  | .hbm, ⟨73, _⟩ => ⟨S_, .f32⟩
  | .hbm, ⟨74, _⟩ => ⟨S524288x64, .f32⟩
  | .hbm, ⟨75, _⟩ => ⟨S524288x64, .f32⟩
  | .hbm, ⟨76, _⟩ => ⟨S1x64x64, .f32⟩
  | .hbm, ⟨77, _⟩ => ⟨S64x64, .f32⟩
  | .hbm, ⟨78, _⟩ => ⟨S64x64, .f32⟩
  | .hbm, ⟨79, _⟩ => ⟨S524288x64, .f32⟩
  | .hbm, ⟨80, _⟩ => ⟨S1x64, .f32⟩
  | .hbm, ⟨81, _⟩ => ⟨S64, .f32⟩
  | .hbm, ⟨82, _⟩ => ⟨S1x64, .f32⟩
  | .hbm, ⟨83, _⟩ => ⟨S524288x64, .f32⟩
  | .hbm, ⟨84, _⟩ => ⟨S524288x64, .f32⟩
  | .hbm, ⟨85, _⟩ => ⟨S_, .f32⟩
  | .hbm, ⟨86, _⟩ => ⟨S524288x64, .f32⟩
  | .hbm, ⟨87, _⟩ => ⟨S524288x64, .f32⟩
  | .hbm, ⟨88, _⟩ => ⟨S64x64, .f32⟩
  | .hbm, ⟨89, _⟩ => ⟨S524288x64, .f32⟩
  | .hbm, ⟨90, _⟩ => ⟨S1x64, .f32⟩
  | .hbm, ⟨91, _⟩ => ⟨S524288x64, .f32⟩
  | .hbm, ⟨92, _⟩ => ⟨S524288x64, .f32⟩
  | .hbm, ⟨93, _⟩ => ⟨S_, .i32⟩
  | .hbm, ⟨94, _⟩ => ⟨S_, .i32⟩
  | .hbm, ⟨95, _⟩ => ⟨S_, .f32⟩
  | .hbm, ⟨96, _⟩ => ⟨S524288x64, .f32⟩
  | .hbm, ⟨97, _⟩ => ⟨S524288x64, .f32⟩
  | .hbm, ⟨98, _⟩ => ⟨S_, .f32⟩
  | .hbm, ⟨99, _⟩ => ⟨S524288x64, .f32⟩
  | .hbm, ⟨100, _⟩ => ⟨S524288x64, .f32⟩
  | .hbm, ⟨101, _⟩ => ⟨S524288x64, .f32⟩
  | .hbm, ⟨102, _⟩ => ⟨S524288x64, .f32⟩
  | .hbm, ⟨103, _⟩ => ⟨S524288x64, .f32⟩
  | .hbm, ⟨104, _⟩ => ⟨S524288x128, .f32⟩
  | .hbm, ⟨105, _⟩ => ⟨S_, .f32⟩
  | .hbm, ⟨106, _⟩ => ⟨S524288, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_cst : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call2_cst : Ref sig .tc := ⟨.hbm, 44, rfl⟩
abbrev main_call2_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call3_cst : Ref sig .tc := ⟨.hbm, 61, rfl⟩
abbrev main_call3_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_call4_cst : Ref sig .tc := ⟨.hbm, 73, rfl⟩
abbrev main_call4_v0 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call5_cst : Ref sig .tc := ⟨.hbm, 85, rfl⟩
abbrev main_call5_v0 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c : Ref sig .tc := ⟨.hbm, 93, rfl⟩
abbrev main_c_0 : Ref sig .tc := ⟨.hbm, 94, rfl⟩
abbrev main_call6_v0 : Ref sig .tc := ⟨.hbm, 95, rfl⟩
abbrev main_call6_v1 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  slices_S524288x128_S524288x64_0_0 : S524288x128.Slices ![0, 0] S524288x64
  slices_S524288x128_S524288x64_0_64 : S524288x128.Slices ![0, 64] S524288x64
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S524288x64_S524288x64_S524288x128_d1 : Shape.Concatenates [S524288x64, S524288x64] S524288x128 1
  reducesTo_S524288x64_S524288_d1 : S524288x64.ReducesTo [1] S524288
  h_S_ : 0 < S_.numel
  dot_S524288x64_S64x64_S524288x64_1_0_0_1_n_n_wf : DotDims.WF S524288x64 S64x64 S524288x64 [1] [0] [0] [1] [] []

variable [Facts₀]

def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf

class Facts : Prop extends Facts₀ where

variable [Facts]
-- ==== Proof.Spec.lean ====
/-
  The coupling layer as mathematics, row by row, on the extended reals.

  A row of the input has 128 entries: the first 64 are kept (`keep`), the last 64 are moved (`moved`).
  Two small networks read the kept half: each is three dense layers with a ramp (`hidden`: the layer's
  affine image, then the maximum with zero) followed by one affine layer (`affine`). One network gives
  the shift, the other the logarithm of the scale. The moved half becomes
  `moved · exp (clamp (log-scale)) + shift`, the clamp being to the interval [-5, 3], and the row's second
  result is the sum of the 64 unclamped log-scales.

  A dense layer with weight matrix `W` (row `j` of `W` holds the weights of output `j`) and bias `b`
  sends `h` to `j ↦ (∑ k, h k · W j k) + b j`. Nothing here needs the entries to be finite: both programs
  compute these very sums and products in this order of operands, so no law of the reals is used.
-/
import Idealize.ShloMosaic.PureOps.Ideal
import Idealize.ShloMosaic.PureOps.Ideal.Laws
import Idealize.ShloMosaic.Lib.ValueIdx

noncomputable section

namespace Cert.Coupling

open Idealize.ShloMosaic Idealize.ShloMosaic.ValueIdx

/-- The affine image of `h` under the matrix `W` (row `j` = the weights of output `j`) and the bias `b`. -/
def affine (W : Fin 64 → Fin 64 → EReal) (b : Fin 64 → EReal) (h : Fin 64 → EReal) : Fin 64 → EReal :=
  fun j => (∑ k : Fin 64, h k * W j k) + b j

/-- A hidden layer: the affine image, then the maximum with the number the f32 zero word denotes. -/
def hidden (W : Fin 64 → Fin 64 → EReal) (b : Fin 64 → EReal) (h : Fin 64 → EReal) : Fin 64 → EReal :=
  fun j => max (affine W b h j) (Ideal.ofBits .f32 0x00000000#32)

/-- Three hidden layers, then an affine one. -/
def mlp (Wh : Fin 3 → Fin 64 → Fin 64 → EReal) (bh : Fin 3 → Fin 64 → EReal) (Wo : Fin 64 → Fin 64 → EReal)
    (bo : Fin 64 → EReal) (h : Fin 64 → EReal) : Fin 64 → EReal :=
  affine Wo bo (hidden (Wh 2) (bh 2) (hidden (Wh 1) (bh 1) (hidden (Wh 0) (bh 0) h)))

/-- The clamp to [-5, 3]: first the maximum with -5, then the minimum with 3. -/
def clamp (v : EReal) : EReal := min ((3 : ℝ) : EReal) (max ((-5 : ℝ) : EReal) v)

/-! ## The arrays read as rows -/

abbrev SX : Shape := ⟨2, ![524288, 128]⟩
abbrev SW3 : Shape := ⟨3, ![3, 64, 64]⟩
abbrev SB3 : Shape := ⟨2, ![3, 64]⟩
abbrev SW : Shape := ⟨2, ![64, 64]⟩
abbrev SB : Shape := ⟨1, ![64]⟩
abbrev SL : Shape := ⟨1, ![524288]⟩

/-- The kept half of row `r`. -/
def keep (x : SX.Idx → EReal) (r : Fin 524288) : Fin 64 → EReal :=
  fun k => x (ix2 r (⟨k.val, by have := k.isLt; omega⟩ : Fin 128))
/-- The moved half of row `r`. -/
def moved (x : SX.Idx → EReal) (r : Fin 524288) : Fin 64 → EReal :=
  fun k => x (ix2 r (⟨64 + k.val, by have := k.isLt; omega⟩ : Fin 128))
/-- A stack of three weight matrices, a stack of three biases, one matrix, one bias, as functions of coordinates. -/
def wh (W : SW3.Idx → EReal) : Fin 3 → Fin 64 → Fin 64 → EReal := fun i j k => W (ix3 i j k)
def bh (b : SB3.Idx → EReal) : Fin 3 → Fin 64 → EReal := fun i j => b (ix2 i j)
def wo (W : SW.Idx → EReal) : Fin 64 → Fin 64 → EReal := fun j k => W (ix2 j k)
def bo (b : SB.Idx → EReal) : Fin 64 → EReal := fun j => b (ix1 j)

/-- What a network makes of row `r`'s kept half. -/
def net (x : SX.Idx → EReal) (Wh : SW3.Idx → EReal) (Bh : SB3.Idx → EReal) (Wo : SW.Idx → EReal) (Bo : SB.Idx → EReal)
    (r : Fin 524288) : Fin 64 → EReal :=
  mlp (wh Wh) (bh Bh) (wo Wo) (bo Bo) (keep x r)

/-- One row of the first result from the row's kept half `kp`, moved half `mv`, log-scales `ls` and shifts `sh`:
    the kept half as it was, then the moved half scaled and shifted. -/
def yRow (kp mv ls sh : Fin 64 → EReal) (q : Fin 128) : EReal :=
  if h : q.val < 64 then kp ⟨q.val, h⟩
  else
    mv ⟨q.val - 64, by have := q.isLt; omega⟩ * Ideal.exp (clamp (ls ⟨q.val - 64, by have := q.isLt; omega⟩))
      + sh ⟨q.val - 64, by have := q.isLt; omega⟩

/-- Entry `(r, q)` of the first result. -/
def yAt (x : SX.Idx → EReal) (cWh : SW3.Idx → EReal) (cBh : SB3.Idx → EReal) (cWo : SW.Idx → EReal) (cBo : SB.Idx → EReal)
    (sWh : SW3.Idx → EReal) (sBh : SB3.Idx → EReal) (sWo : SW.Idx → EReal) (sBo : SB.Idx → EReal)
    (r : Fin 524288) (q : Fin 128) : EReal :=
  yRow (keep x r) (moved x r) (net x sWh sBh sWo sBo r) (net x cWh cBh cWo cBo r) q

/-- The first result as an array. -/
def Gy (x : SX.Idx → EReal) (cWh : SW3.Idx → EReal) (cBh : SB3.Idx → EReal) (cWo : SW.Idx → EReal) (cBo : SB.Idx → EReal)
    (sWh : SW3.Idx → EReal) (sBh : SB3.Idx → EReal) (sWo : SW.Idx → EReal) (sBo : SB.Idx → EReal) : SX.Idx → EReal :=
  fun i => yAt x cWh cBh cWo cBo sWh sBh sWo sBo ⟨(i 0).val, (i 0).isLt⟩ ⟨(i 1).val, (i 1).isLt⟩

/-- Entry `r` of the second result: the sum of the row's 64 log-scales. -/
def ldAt (x : SX.Idx → EReal) (sWh : SW3.Idx → EReal) (sBh : SB3.Idx → EReal) (sWo : SW.Idx → EReal) (sBo : SB.Idx → EReal)
    (r : Fin 524288) : EReal :=
  ∑ k : Fin 64, net x sWh sBh sWo sBo r k

/-- The second result as an array. -/
def Gld (x : SX.Idx → EReal) (sWh : SW3.Idx → EReal) (sBh : SB3.Idx → EReal) (sWo : SW.Idx → EReal) (sBo : SB.Idx → EReal) :
    SL.Idx → EReal :=
  fun i => ldAt x sWh sBh sWo sBo ⟨(i 0).val, (i 0).isLt⟩

theorem Gy_ix2 (x : SX.Idx → EReal) (cWh : SW3.Idx → EReal) (cBh : SB3.Idx → EReal) (cWo : SW.Idx → EReal) (cBo : SB.Idx → EReal)
    (sWh : SW3.Idx → EReal) (sBh : SB3.Idx → EReal) (sWo : SW.Idx → EReal) (sBo : SB.Idx → EReal) (r : Fin 524288) (q : Fin 128) :
    Gy x cWh cBh cWo cBo sWh sBh sWo sBo (ix2 r q) = yAt x cWh cBh cWo cBo sWh sBh sWo sBo r q := rfl

theorem Gld_ix1 (x : SX.Idx → EReal) (sWh : SW3.Idx → EReal) (sBh : SB3.Idx → EReal) (sWo : SW.Idx → EReal) (sBo : SB.Idx → EReal)
    (r : Fin 524288) : Gld x sWh sBh sWo sBo (ix1 r) = ldAt x sWh sBh sWo sBo r := rfl

/-! ## The words of the two clamp bounds -/

/-- The f32 word `0xC0A00000` is the real -5. -/
theorem ofBits_neg_five : Ideal.ofBits .f32 0xC0A00000#32 = ((-5 : ℝ) : EReal) := by
  simp [Ideal.ofBits, Ideal.ieee, -EReal.coe_mul, -EReal.coe_neg]; norm_num

/-- The f32 word `0x40400000` is the real 3. -/
theorem ofBits_three : Ideal.ofBits .f32 0x40400000#32 = ((3 : ℝ) : EReal) := by
  simp [Ideal.ofBits, Ideal.ieee, -EReal.coe_mul]; norm_num

/-- The 32-bit integer word of -5, read signed and made a float, is the real -5. -/
theorem sitofp_neg_five : (((4294967291#32 : BitVec 32).toInt : ℝ) : EReal) = ((-5 : ℝ) : EReal) := by
  have : (4294967291#32 : BitVec 32).toInt = -5 := by decide
  rw [this]; norm_num

/-- The 32-bit integer word of 3, read signed and made a float, is the real 3. -/
theorem sitofp_three : (((3#32 : BitVec 32).toInt : ℝ) : EReal) = ((3 : ℝ) : EReal) := by
  have : (3#32 : BitVec 32).toInt = 3 := by decide
  rw [this]; norm_num

end Cert.Coupling

end
-- ==== Proof.KernelPay.lean ====
/-
  What one grid point's body leaves in its two output blocks, read entry by entry.

  The body sees a block of 8192 rows of the input and the whole of the eight parameter arrays, the weight
  matrices already transposed by the host (`WT i k j` is the weight of input `k` for output `j` of layer `i`).
  Entry `(p, q)` of the first output block is the coupling row `Coupling.yRow` of the block's row `p`, and
  entry `(p, 0)` of the second is the sum of that row's 64 log-scales.
-/
import proofs.«178531_j34583076667869_1_alg».proof.Proof.Gen.KernelIdeal.Frame
import proofs.«178531_j34583076667869_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Coupling Idealize.ShloMosaic Idealize.ShloMosaic.ValueIdx

/-- The kept half of row `p` of a block. -/
def keepB (x0 : FVec Ideal S8192x128 .f32) (p : Fin 8192) : Fin 64 → EReal :=
  fun k => x0 (ix2 p (⟨k.val, by have := k.isLt; omega⟩ : Fin 128))
/-- The moved half of row `p` of a block. -/
def movedB (x0 : FVec Ideal S8192x128 .f32) (p : Fin 8192) : Fin 64 → EReal :=
  fun k => x0 (ix2 p (⟨64 + k.val, by have := k.isLt; omega⟩ : Fin 128))
/-- A transposed stack of weight matrices read as `layer, output, input`. -/
def whT (W : FVec Ideal S3x64x64 .f32) : Fin 3 → Fin 64 → Fin 64 → EReal := fun i j k => W (ix3 i k j)
/-- A transposed weight matrix read as `output, input`. -/
def woT (W : FVec Ideal S64x64 .f32) : Fin 64 → Fin 64 → EReal := fun j k => W (ix2 k j)

/-- The network's value on row `p` of the block, from the transposed weights. -/
def netB (x0 : FVec Ideal S8192x128 .f32) (WT : FVec Ideal S3x64x64 .f32) (B : FVec Ideal S3x64 .f32)
    (WoT : FVec Ideal S64x64 .f32) (Bo : FVec Ideal S64 .f32) (p : Fin 8192) : Fin 64 → EReal :=
  mlp (whT WT) (bh B) (woT WoT) (bo Bo) (keepB x0 p)

/-! ## The two halves of a row -/

/-- The first slice of the block is the kept half of each row. -/
theorem pay3_apply (x0 : FVec Ideal S8192x128 .f32) (p : Fin 8192) (j : Fin 64) :
    k0_pay3 (F := Ideal) x0 (ix2 p j) = keepB x0 p j := by
  unfold k0_pay3
  exact slice2_axis1_apply 0 x0 slices_S8192x128_o0_0_S8192x64 p j ⟨j.val, by have := j.isLt; omega⟩ (Nat.zero_add _).symm

/-- The second slice of the block is the moved half of each row. -/
theorem pay4_apply (x0 : FVec Ideal S8192x128 .f32) (p : Fin 8192) (j : Fin 64) :
    k0_pay4 (F := Ideal) x0 (ix2 p j) = movedB x0 p j := by
  unfold k0_pay4
  exact slice2_axis1_apply 64 x0 slices_S8192x128_o0_64_S8192x64 p j ⟨64 + j.val, by have := j.isLt; omega⟩ rfl

/-! ## One layer's weights and bias -/

/-- Layer `i` of a stack of matrices, cut out and with its unit axis dropped, is the stack at `i`. -/
theorem weight_apply (W : FVec Ideal S3x64x64 .f32) (o : Nat) (i : Fin 3) (hi : i.val = o)
    (h : S3x64x64.Slices ![o, 0, 0] S1x64x64) (k j : Fin 64) :
    shapeCast S64x64 (extractStridedSlice S1x64x64 ![o, 0, 0] (shapeCast S3x64x64 W shapeCasts_S3x64x64_S3x64x64) h)
      shapeCasts_S1x64x64_S64x64 (ix2 k j) = W (ix3 i k j) := by
  rw [shapeCast_self]
  refine (shapeCast_1ab_ab_apply _ shapeCasts_S1x64x64_S64x64 k j).trans ?_
  exact extractStridedSlice_apply _ W h _ (ix3 i k j) (fun a => by
    match a with
    | ⟨0, _⟩ => show i.val = o + 0; omega
    | ⟨1, _⟩ => exact (Nat.zero_add _).symm
    | ⟨2, _⟩ => exact (Nat.zero_add _).symm)

/-- Row `i` of a stack of biases, cut out and spread over the block's rows, is that bias in every row. -/
theorem bias_apply (B : FVec Ideal S3x64 .f32) (o : Nat) (i : Fin 3) (hi : i.val = o)
    (h : S3x64.Slices ![o, 0] S1x64) (p : Fin 8192) (j : Fin 64) :
    broadcastTo S8192x64 (shapeCast S1x64 (shapeCast S64 (extractStridedSlice S1x64 ![o, 0] B h) shapeCasts_S1x64_S64)
      shapeCasts_S64_S1x64) broadcasts_S1x64_S8192x64 (ix2 p j) = B (ix2 i j) := by
  refine (broadcastTo_1b_ab_apply _ broadcasts_S1x64_S8192x64 p j).trans ?_
  refine (shapeCast_a_1a_apply _ shapeCasts_S64_S1x64 0 j).trans ?_
  refine (shapeCast_1a_a_apply _ shapeCasts_S1x64_S64 j).trans ?_
  exact slice2_axis0_apply o B h 0 j i (by show i.val = o + 0; omega)

/-- A single bias spread over the block's rows is that bias in every row. -/
theorem bias_last_apply (b : FVec Ideal S64 .f32) (p : Fin 8192) (j : Fin 64) :
    broadcastTo S8192x64 (shapeCast S1x64 b shapeCasts_S64_S1x64) broadcasts_S1x64_S8192x64 (ix2 p j) = b (ix1 j) := by
  refine (broadcastTo_1b_ab_apply _ broadcasts_S1x64_S8192x64 p j).trans ?_
  exact shapeCast_a_1a_apply _ shapeCasts_S64_S1x64 0 j

/-! ## A dense layer of the body -/

/-- The left operand's index of the product at output `i`, contraction `q`: its row is `i`'s row. -/
theorem lhs_dense_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
/-- … and its column is the contraction coordinate. -/
theorem lhs_dense_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
/-- The right operand's index: its row is the contraction coordinate … -/
theorem rhs_dense_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
/-- … and its column is `i`'s column. -/
theorem rhs_dense_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The body's matrix product into a zero block, at `(p, j)`: row `p` of the left factor against column `j` of the right. -/
theorem dense_apply (A : FVec Ideal S8192x64 .f32) (W : FVec Ideal S64x64 .f32) (p : Fin 8192) (j : Fin 64) :
    matmul dot_S8192x64_S64x64_S8192x64_1_0_0_1_n_n (some .fp32) A W (constant (F := Ideal) S8192x64 .f32 0x00000000#32) (ix2 p j)
      = ∑ k : Fin 64, A (ix2 p k) * W (ix2 k j) := by
  simp only [matmul]
  rw [Ideal.matmul_constant_zero_apply, ← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx (ix2 p j) ((ValueIdx.contrEquiv1 dot_S8192x64_S64x64_S8192x64_1_0_0_1_n_n 64 rfl rfl).symm k) = ix2 p k := funext fun a => Fin.ext (by
    match a with
    | ⟨0, _⟩ => exact lhs_dense_0 _ _
    | ⟨1, _⟩ => exact (lhs_dense_1 _ _).trans hk)
  have er : dot_S8192x64_S64x64_S8192x64_1_0_0_1_n_n.rhsIdx (ix2 p j) ((ValueIdx.contrEquiv1 dot_S8192x64_S64x64_S8192x64_1_0_0_1_n_n 64 rfl rfl).symm k) = ix2 k j := funext fun a => Fin.ext (by
    match a with
    | ⟨0, _⟩ => exact (rhs_dense_0 _ _).trans hk
    | ⟨1, _⟩ => exact rhs_dense_1 _ _)
  rw [el, er]

/-! ## The layers of a network -/

/-- An affine layer of the body at `(p, j)`, given what its three operands are on row `p`. -/
theorem affine_apply (A : FVec Ideal S8192x64 .f32) (Wm : FVec Ideal S64x64 .f32) (Bv : FVec Ideal S8192x64 .f32)
    (Wf : Fin 64 → Fin 64 → EReal) (b h : Fin 64 → EReal) (p : Fin 8192)
    (hA : ∀ k, A (ix2 p k) = h k) (hW : ∀ k j, Wm (ix2 k j) = Wf j k) (hB : ∀ j, Bv (ix2 p j) = b j) (j : Fin 64) :
    addf (matmul dot_S8192x64_S64x64_S8192x64_1_0_0_1_n_n (some .fp32) A Wm (constant (F := Ideal) S8192x64 .f32 0x00000000#32)) Bv (ix2 p j)
      = affine Wf b h j := by
  show matmul dot_S8192x64_S64x64_S8192x64_1_0_0_1_n_n (some .fp32) A Wm (constant (F := Ideal) S8192x64 .f32 0x00000000#32) (ix2 p j)
      + Bv (ix2 p j) = (∑ k : Fin 64, h k * Wf j k) + b j
  rw [dense_apply, hB]
  exact congrArg (· + b j) (Finset.sum_congr rfl fun k _ => by rw [hA, hW])

/-- A hidden layer of the body at `(p, j)`: the affine layer, then the maximum with the zero word's number. -/
theorem hidden_apply (A : FVec Ideal S8192x64 .f32) (Wm : FVec Ideal S64x64 .f32) (Bv : FVec Ideal S8192x64 .f32)
    (Wf : Fin 64 → Fin 64 → EReal) (b h : Fin 64 → EReal) (p : Fin 8192)
    (hA : ∀ k, A (ix2 p k) = h k) (hW : ∀ k j, Wm (ix2 k j) = Wf j k) (hB : ∀ j, Bv (ix2 p j) = b j) (j : Fin 64) :
    maximumf (addf (matmul dot_S8192x64_S64x64_S8192x64_1_0_0_1_n_n (some .fp32) A Wm (constant (F := Ideal) S8192x64 .f32 0x00000000#32)) Bv)
        (broadcast S8192x64 (Scalar.ofBits .f32 0x00000000#32 : Ideal .f32)) (ix2 p j)
      = hidden Wf b h j := by
  show max (addf (matmul dot_S8192x64_S64x64_S8192x64_1_0_0_1_n_n (some .fp32) A Wm (constant (F := Ideal) S8192x64 .f32 0x00000000#32)) Bv (ix2 p j))
      (Ideal.ofBits .f32 0x00000000#32) = max (affine Wf b h j) (Ideal.ofBits .f32 0x00000000#32)
  rw [affine_apply A Wm Bv Wf b h p hA hW hB j]

/-- The three hidden layers and the last matrix product, before the last bias: the network's last affine layer with
    its bias left out. -/
theorem pay5_apply (x0 : FVec Ideal S8192x128 .f32) (x1 : FVec Ideal S3x64x64 .f32) (x2 : FVec Ideal S3x64 .f32)
    (x3 : FVec Ideal S64x64 .f32) (p : Fin 8192) (j : Fin 64) :
    k0_pay5 (F := Ideal) x0 x1 x2 x3 (ix2 p j)
      = ∑ k : Fin 64, hidden (whT x1 2) (bh x2 2) (hidden (whT x1 1) (bh x2 1) (hidden (whT x1 0) (bh x2 0) (keepB x0 p))) k * woT x3 j k := by
  unfold k0_pay5
  refine (dense_apply _ _ p j).trans ?_
  refine Finset.sum_congr rfl fun k _ => ?_
  rw [shapeCast_self x3 shapeCasts_S64x64_S64x64]
  refine congrArg (· * x3 (ix2 k j)) ?_
  refine hidden_apply _ _ _ (whT x1 2) (bh x2 2) _ p (fun k => ?_) (fun k j => weight_apply x1 2 2 rfl _ k j)
    (fun j => bias_apply x2 2 2 rfl _ p j) k
  refine hidden_apply _ _ _ (whT x1 1) (bh x2 1) _ p (fun k => ?_) (fun k j => weight_apply x1 1 1 rfl _ k j)
    (fun j => bias_apply x2 1 1 rfl _ p j) k
  refine hidden_apply _ _ _ (whT x1 0) (bh x2 0) _ p (fun k => pay3_apply x0 p k) (fun k j => weight_apply x1 0 0 rfl _ k j)
    (fun j => bias_apply x2 0 0 rfl _ p j) k

/-- The last bias spread over the block's rows. -/
theorem pay6_apply (x4 : FVec Ideal S64 .f32) (p : Fin 8192) (j : Fin 64) :
    k0_pay6 (F := Ideal) x4 (ix2 p j) = bo x4 j := by
  unfold k0_pay6
  exact bias_last_apply x4 p j

/-- With the last bias added: the shift network on row `p`. -/
theorem pay7_apply (x0 : FVec Ideal S8192x128 .f32) (x1 : FVec Ideal S3x64x64 .f32) (x2 : FVec Ideal S3x64 .f32)
    (x3 : FVec Ideal S64x64 .f32) (x4 : FVec Ideal S64 .f32) (p : Fin 8192) (j : Fin 64) :
    k0_pay7 (k0_pay5 (F := Ideal) x0 x1 x2 x3) (k0_pay6 (F := Ideal) x4) (ix2 p j) = netB x0 x1 x2 x3 x4 p j := by
  unfold k0_pay7
  show k0_pay5 (F := Ideal) x0 x1 x2 x3 (ix2 p j) + k0_pay6 (F := Ideal) x4 (ix2 p j) = _
  rw [pay5_apply, pay6_apply]
  rfl

/-- The whole log-scale network on row `p`, from whatever the first operand's row `p` is. -/
theorem pay8_apply (v1 : FVec Ideal S8192x64 .f32) (h0 : Fin 64 → EReal) (x5 : FVec Ideal S3x64x64 .f32)
    (x6 : FVec Ideal S3x64 .f32) (x7 : FVec Ideal S64x64 .f32) (x8 : FVec Ideal S64 .f32) (p : Fin 8192)
    (hv : ∀ k, v1 (ix2 p k) = h0 k) (j : Fin 64) :
    k0_pay8 (F := Ideal) v1 x5 x6 x7 x8 (ix2 p j) = mlp (whT x5) (bh x6) (woT x7) (bo x8) h0 j := by
  unfold k0_pay8
  show _ = affine (woT x7) (bo x8) (hidden (whT x5 2) (bh x6 2) (hidden (whT x5 1) (bh x6 1) (hidden (whT x5 0) (bh x6 0) h0))) j
  refine affine_apply _ _ _ (woT x7) (bo x8) _ p (fun k => ?_)
    (fun k j => congrFun (shapeCast_self x7 shapeCasts_S64x64_S64x64) (ix2 k j)) (fun j => bias_last_apply x8 p j) j
  refine hidden_apply _ _ _ (whT x5 2) (bh x6 2) _ p (fun k => ?_) (fun k j => weight_apply x5 2 2 rfl _ k j)
    (fun j => bias_apply x6 2 2 rfl _ p j) k
  refine hidden_apply _ _ _ (whT x5 1) (bh x6 1) _ p (fun k => ?_) (fun k j => weight_apply x5 1 1 rfl _ k j)
    (fun j => bias_apply x6 1 1 rfl _ p j) k
  exact hidden_apply _ _ _ (whT x5 0) (bh x6 0) _ p hv (fun k j => weight_apply x5 0 0 rfl _ k j)
    (fun j => bias_apply x6 0 0 rfl _ p j) k

/-- The log-scales bounded below by -5. -/
theorem pay9_apply (v1 : FVec Ideal S8192x64 .f32) (h0 : Fin 64 → EReal) (x5 : FVec Ideal S3x64x64 .f32)
    (x6 : FVec Ideal S3x64 .f32) (x7 : FVec Ideal S64x64 .f32) (x8 : FVec Ideal S64 .f32) (p : Fin 8192)
    (hv : ∀ k, v1 (ix2 p k) = h0 k) (j : Fin 64) :
    k0_pay9 (F := Ideal) v1 x5 x6 x7 x8 (ix2 p j) = max ((-5 : ℝ) : EReal) (mlp (whT x5) (bh x6) (woT x7) (bo x8) h0 j) := by
  unfold k0_pay9
  show max (Ideal.ofBits .f32 0xC0A00000#32) (k0_pay8 (F := Ideal) v1 x5 x6 x7 x8 (ix2 p j)) = _
  rw [Coupling.ofBits_neg_five, pay8_apply v1 h0 x5 x6 x7 x8 p hv j]

/-! ## The two stored values -/

/-- The first stored value at `(p, q)`: the kept half in the first 64 columns, the moved half scaled and shifted in the rest. -/
theorem pay1_apply (v1 v2 v42 v84 : FVec Ideal S8192x64 .f32) (kp mv ls sh : Fin 64 → EReal) (p : Fin 8192)
    (h1 : ∀ k, v1 (ix2 p k) = kp k) (h2 : ∀ k, v2 (ix2 p k) = mv k) (h42 : ∀ k, v42 (ix2 p k) = sh k)
    (h84 : ∀ k, v84 (ix2 p k) = max ((-5 : ℝ) : EReal) (ls k)) (q : Fin 128) :
    k0_pay1 (F := Ideal) v1 v2 v42 (Scalar.ofBits .f32 0x40400000#32) v84 (ix2 p q) = yRow kp mv ls sh q := by
  unfold k0_pay1 yRow
  by_cases hq : q.val < 64
  · rw [dif_pos hq]
    refine (concatenate_pair_apply_left 1 _ _ concatenates_S8192x64_S8192x64_S8192x128_d1 (ix2 p q) rfl
      (ix2 p (⟨q.val, hq⟩ : Fin 64)) (fun b => ?_)).trans (h1 _)
    match b with
    | ⟨0, _⟩ => rfl
    | ⟨1, _⟩ => rfl
  · rw [dif_neg hq]
    have hq' : q.val - 64 < 64 := by have := q.isLt; omega
    refine (concatenate_pair_apply_right 1 _ _ concatenates_S8192x64_S8192x64_S8192x128_d1 (ix2 p q) rfl rfl
      (ix2 p (⟨q.val - 64, hq'⟩ : Fin 64)) (fun b hb => ?_) ?_).trans ?_
    · match b with
      | ⟨0, _⟩ => rfl
      | ⟨1, _⟩ => exact absurd rfl hb
    · show (q.val - 64) + 64 = q.val
      omega
    · show v2 (ix2 p (⟨q.val - 64, hq'⟩ : Fin 64))
          * Ideal.exp (min (Ideal.ofBits .f32 0x40400000#32) (v84 (ix2 p (⟨q.val - 64, hq'⟩ : Fin 64))))
          + v42 (ix2 p (⟨q.val - 64, hq'⟩ : Fin 64)) = _
      rw [h2, h84, h42, Coupling.ofBits_three]
      rfl

/-- The second stored value at `(p, 0)`: the sum along row `p`. -/
theorem pay2_apply (v82 : FVec Ideal S8192x64 .f32) (p : Fin 8192) (u : Fin 1) :
    k0_pay2 (F := Ideal) v82 (ix2 p u) = ∑ k : Fin 64, v82 (ix2 p k) := by
  unfold k0_pay2
  refine (shapeCast_apply _ shapeCasts_S8192_S8192x1 (ix2 p u) (ix1 p) (by
    have hu : u.val = 0 := by omega
    rw [Shape.rowMajor_val_two, Shape.rowMajor_val_one]
    show p.val = p.val * 1 + u.val
    omega)).trans ?_
  refine (Ideal.multiReduction_add_single v82 0x00000000#32 reduces_S8192x64_S8192 (.inl rfl) rfl (ix1 p)).trans ?_
  refine Finset.sum_congr rfl fun k _ => congrArg v82 (funext fun a => Fin.ext ?_)
  match a with
  | ⟨0, _⟩ => rfl
  | ⟨1, _⟩ => rfl

/-- The zero offsets of a whole-block access, at ranks 1, 2 and 3. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Entry `(p, q)` of the first output block. -/
theorem out0_9_apply (x0 : FVec Ideal S8192x128 .f32) (x1 : FVec Ideal S3x64x64 .f32) (x2 : FVec Ideal S3x64 .f32)
    (x3 : FVec Ideal S64x64 .f32) (x4 : FVec Ideal S64 .f32) (x5 : FVec Ideal S3x64x64 .f32) (x6 : FVec Ideal S3x64 .f32)
    (x7 : FVec Ideal S64x64 .f32) (x8 : FVec Ideal S64 .f32) (p : Fin 8192) (q : Fin 128) :
    out0_9 (F := Ideal) x0 x1 x2 x3 x4 x5 x6 x7 x8 (ix2 p q)
      = yRow (keepB x0 p) (movedB x0 p) (netB x0 x5 x6 x7 x8 p) (netB x0 x1 x2 x3 x4 p) q := by
  unfold out0_9
  rw [View.canon_unit_zero hz2]
  simp only [View.ld_unit_zero (S := S8192x128) hz2, View.ld_unit_zero (S := S3x64x64) hz3,
    View.ld_unit_zero (S := S3x64) hz2, View.ld_unit_zero (S := S64x64) hz2, View.ld_unit_zero (S := S64) hz1]
  exact pay1_apply _ _ _ _ (keepB x0 p) (movedB x0 p) (netB x0 x5 x6 x7 x8 p) (netB x0 x1 x2 x3 x4 p) p
    (fun k => pay3_apply x0 p k) (fun k => pay4_apply x0 p k) (fun k => pay7_apply x0 x1 x2 x3 x4 p k)
    (fun k => pay9_apply _ (keepB x0 p) x5 x6 x7 x8 p (fun k => pay3_apply x0 p k) k) q

/-- Entry `(p, 0)` of the second output block. -/
theorem out0_10_apply (x0 : FVec Ideal S8192x128 .f32) (x1 : FVec Ideal S3x64x64 .f32) (x2 : FVec Ideal S3x64 .f32)
    (x3 : FVec Ideal S64x64 .f32) (x4 : FVec Ideal S64 .f32) (x5 : FVec Ideal S3x64x64 .f32) (x6 : FVec Ideal S3x64 .f32)
    (x7 : FVec Ideal S64x64 .f32) (x8 : FVec Ideal S64 .f32) (p : Fin 8192) (u : Fin 1) :
    out0_10 (F := Ideal) x0 x1 x2 x3 x4 x5 x6 x7 x8 (ix2 p u) = ∑ k : Fin 64, netB x0 x5 x6 x7 x8 p k := by
  unfold out0_10
  rw [View.canon_unit_zero hz2]
  simp only [View.ld_unit_zero (S := S8192x128) hz2, View.ld_unit_zero (S := S3x64x64) hz3,
    View.ld_unit_zero (S := S3x64) hz2, View.ld_unit_zero (S := S64x64) hz2, View.ld_unit_zero (S := S64) hz1]
  refine (pay2_apply _ p u).trans ?_
  exact Finset.sum_congr rfl fun k _ => pay8_apply _ (keepB x0 p) x5 x6 x7 x8 p (fun k => pay3_apply x0 p k) k

end Cert.KernelIdeal.Pay

end
-- ==== Proof.KernelValue.lean ====
/-
  The kernel program's two results as whole arrays.

  The host first transposes the four weight arrays; the region then walks the 64 blocks of 8192 rows. At block `t`
  the body sees rows `8192·t … 8192·t + 8191` of the input and the whole of every parameter array, and what it
  writes back is, entry by entry, the coupling row of the specification for the row it came from (the body's
  values at an index are read in the module on the body's payloads; the transposes cancel against the transposed
  reading there). The 64 blocks tile both output arrays, so after the region the first output array is the
  specification's first array, and the second, a column, holds the row sums; the host's last operation reads that
  column as a vector.
-/
import proofs.«178531_j34583076667869_1_alg».proof.Proof.Gen.KernelIdeal.Frame
import proofs.«178531_j34583076667869_1_alg».proof.Proof.KernelPay
import proofs.«178531_j34583076667869_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.KValue

open Cert.KernelIdeal Cert.KernelIdeal.Gen Cert.KernelIdeal.Pay Cert.Coupling Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

/-! ## The four transposed weight arrays, as the region finds them -/

theorem V_v0 (c : Dev nD) : (V m c main_v0 : S3x64x64.Idx → EReal)
    = transpose S3x64x64 [0, 2, 1] (m ((c : Thread nD τ).loc main_arg1)) transposes_S3x64x64_S3x64x64_0_2_1 := by
  show StableHlo.after hostOps0 (fun b => m (c, b)) (Proc.devRef .tc main_v0) = _
  after_results

theorem V_v1 (c : Dev nD) : (V m c main_v1 : S64x64.Idx → EReal)
    = transpose S64x64 [1, 0] (m ((c : Thread nD τ).loc main_arg3)) transposes_S64x64_S64x64_1_0 := by
  show StableHlo.after hostOps0 (fun b => m (c, b)) (Proc.devRef .tc main_v1) = _
  after_results

theorem V_v2 (c : Dev nD) : (V m c main_v2 : S3x64x64.Idx → EReal)
    = transpose S3x64x64 [0, 2, 1] (m ((c : Thread nD τ).loc main_arg5)) transposes_S3x64x64_S3x64x64_0_2_1 := by
  show StableHlo.after hostOps0 (fun b => m (c, b)) (Proc.devRef .tc main_v2) = _
  after_results

theorem V_v3 (c : Dev nD) : (V m c main_v3 : S64x64.Idx → EReal)
    = transpose S64x64 [1, 0] (m ((c : Thread nD τ).loc main_arg7)) transposes_S64x64_S64x64_1_0 := by
  show StableHlo.after hostOps0 (fun b => m (c, b)) (Proc.devRef .tc main_v3) = _
  after_results

/-! ## Where each window's block sits -/

/-- The input and both outputs move one block of rows per grid point; every parameter window stays on its whole array. -/
theorem idx_facts : ∀ t : Fin cfg0.N, win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem idx_params : ∀ t : Fin cfg0.N,
    (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0)
    ∧ win0_8.index t (0 : Fin 1) = 0 :=
  (by decide +kernel : ∀ t : Fin grid0.N, _)

/-- Row `8192·t + p` of the whole input. -/
abbrev rowOf (t : Fin cfg0.N) (p : Fin 8192) : Fin 524288 :=
  ⟨t.val * 8192 + p.val, by have := t.isLt; have := p.isLt; have : cfg0.N = 64 := N_0; omega⟩

/-- Entry `(p, q)` of the input's block at point `t` is entry `(8192·t + p, q)` of the input. -/
theorem blk0 (c : Dev nD) (t : Fin cfg0.N) (p : Fin 8192) (q : Fin 128) :
    (iblk m c 0 t : S8192x128.Idx → EReal) (ix2 p q) = m ((c : Thread nD τ).loc main_arg0) (ix2 (rowOf t p) q) := by
  obtain ⟨e0, e1, -, -, -, -⟩ := idx_facts t
  show V m c main_arg0 (((cfg0.win 0).blk t).view.emb (ix2 p q)) = _
  rw [V_main_arg0]
  refine congrArg (m ((c : Thread nD τ).loc main_arg0)) (funext fun a => Fin.ext ?_)
  match a with
  | ⟨0, _⟩ => show win0_0.index t (0 : Fin 2) * 8192 + 1 * p.val = t.val * 8192 + p.val; omega
  | ⟨1, _⟩ => show win0_0.index t (1 : Fin 2) * 128 + 1 * q.val = q.val; omega

/-- The shift network's transposed weight stack, read transposed, is the argument's. -/
theorem blk1 (c : Dev nD) (t : Fin cfg0.N) (i : Fin 3) (k j : Fin 64) :
    (iblk m c 1 t : S3x64x64.Idx → EReal) (ix3 i k j) = m ((c : Thread nD τ).loc main_arg1) (ix3 i j k) := by
  obtain ⟨⟨e0, e1, e2⟩, -⟩ := idx_params t
  have he : ((cfg0.win 1).blk t).view.emb (ix3 i k j) = ix3 i k j := funext fun a => Fin.ext (by
    match a with
    | ⟨0, _⟩ => show win0_1.index t (0 : Fin 3) * 3 + 1 * i.val = i.val; omega
    | ⟨1, _⟩ => show win0_1.index t (1 : Fin 3) * 64 + 1 * k.val = k.val; omega
    | ⟨2, _⟩ => show win0_1.index t (2 : Fin 3) * 64 + 1 * j.val = j.val; omega)
  show V m c main_v0 (((cfg0.win 1).blk t).view.emb (ix3 i k j)) = _
  rw [he]
  exact (congrFun (V_v0 m c) (ix3 i k j)).trans (transpose_ix3_021_apply _ _ i k j)

theorem blk2 (c : Dev nD) (t : Fin cfg0.N) (i : Fin 3) (j : Fin 64) :
    (iblk m c 2 t : S3x64.Idx → EReal) (ix2 i j) = m ((c : Thread nD τ).loc main_arg2) (ix2 i j) := by
  obtain ⟨-, ⟨e0, e1⟩, -⟩ := idx_params t
  have he : ((cfg0.win 2).blk t).view.emb (ix2 i j) = ix2 i j := funext fun a => Fin.ext (by
    match a with
    | ⟨0, _⟩ => show win0_2.index t (0 : Fin 2) * 3 + 1 * i.val = i.val; omega
    | ⟨1, _⟩ => show win0_2.index t (1 : Fin 2) * 64 + 1 * j.val = j.val; omega)
  show V m c main_arg2 (((cfg0.win 2).blk t).view.emb (ix2 i j)) = _
  rw [he, V_main_arg2]

theorem blk3 (c : Dev nD) (t : Fin cfg0.N) (k j : Fin 64) :
    (iblk m c 3 t : S64x64.Idx → EReal) (ix2 k j) = m ((c : Thread nD τ).loc main_arg3) (ix2 j k) := by
  obtain ⟨-, -, ⟨e0, e1⟩, -⟩ := idx_params t
  have he : ((cfg0.win 3).blk t).view.emb (ix2 k j) = ix2 k j := funext fun a => Fin.ext (by
    match a with
    | ⟨0, _⟩ => show win0_3.index t (0 : Fin 2) * 64 + 1 * k.val = k.val; omega
    | ⟨1, _⟩ => show win0_3.index t (1 : Fin 2) * 64 + 1 * j.val = j.val; omega)
  show V m c main_v1 (((cfg0.win 3).blk t).view.emb (ix2 k j)) = _
  rw [he]
  exact (congrFun (V_v1 m c) (ix2 k j)).trans (transpose_ix2_apply _ _ k j)

theorem blk4 (c : Dev nD) (t : Fin cfg0.N) (j : Fin 64) :
    (iblk m c 4 t : S64.Idx → EReal) (ix1 j) = m ((c : Thread nD τ).loc main_arg4) (ix1 j) := by
  obtain ⟨-, -, -, e0, -⟩ := idx_params t
  have he : ((cfg0.win 4).blk t).view.emb (ix1 j) = ix1 j := funext fun a => Fin.ext (by
    match a with
    | ⟨0, _⟩ => show win0_4.index t (0 : Fin 1) * 64 + 1 * j.val = j.val; omega)
  show V m c main_arg4 (((cfg0.win 4).blk t).view.emb (ix1 j)) = _
  rw [he, V_main_arg4]

theorem blk5 (c : Dev nD) (t : Fin cfg0.N) (i : Fin 3) (k j : Fin 64) :
    (iblk m c 5 t : S3x64x64.Idx → EReal) (ix3 i k j) = m ((c : Thread nD τ).loc main_arg5) (ix3 i j k) := by
  obtain ⟨-, -, -, -, ⟨e0, e1, e2⟩, -⟩ := idx_params t
  have he : ((cfg0.win 5).blk t).view.emb (ix3 i k j) = ix3 i k j := funext fun a => Fin.ext (by
    match a with
    | ⟨0, _⟩ => show win0_5.index t (0 : Fin 3) * 3 + 1 * i.val = i.val; omega
    | ⟨1, _⟩ => show win0_5.index t (1 : Fin 3) * 64 + 1 * k.val = k.val; omega
    | ⟨2, _⟩ => show win0_5.index t (2 : Fin 3) * 64 + 1 * j.val = j.val; omega)
  show V m c main_v2 (((cfg0.win 5).blk t).view.emb (ix3 i k j)) = _
  rw [he]
  exact (congrFun (V_v2 m c) (ix3 i k j)).trans (transpose_ix3_021_apply _ _ i k j)

theorem blk6 (c : Dev nD) (t : Fin cfg0.N) (i : Fin 3) (j : Fin 64) :
    (iblk m c 6 t : S3x64.Idx → EReal) (ix2 i j) = m ((c : Thread nD τ).loc main_arg6) (ix2 i j) := by
  obtain ⟨-, -, -, -, -, ⟨e0, e1⟩, -⟩ := idx_params t
  have he : ((cfg0.win 6).blk t).view.emb (ix2 i j) = ix2 i j := funext fun a => Fin.ext (by
    match a with
    | ⟨0, _⟩ => show win0_6.index t (0 : Fin 2) * 3 + 1 * i.val = i.val; omega
    | ⟨1, _⟩ => show win0_6.index t (1 : Fin 2) * 64 + 1 * j.val = j.val; omega)
  show V m c main_arg6 (((cfg0.win 6).blk t).view.emb (ix2 i j)) = _
  rw [he, V_main_arg6]

theorem blk7 (c : Dev nD) (t : Fin cfg0.N) (k j : Fin 64) :
    (iblk m c 7 t : S64x64.Idx → EReal) (ix2 k j) = m ((c : Thread nD τ).loc main_arg7) (ix2 j k) := by
  obtain ⟨-, -, -, -, -, -, ⟨e0, e1⟩, -⟩ := idx_params t
  have he : ((cfg0.win 7).blk t).view.emb (ix2 k j) = ix2 k j := funext fun a => Fin.ext (by
    match a with
    | ⟨0, _⟩ => show win0_7.index t (0 : Fin 2) * 64 + 1 * k.val = k.val; omega
    | ⟨1, _⟩ => show win0_7.index t (1 : Fin 2) * 64 + 1 * j.val = j.val; omega)
  show V m c main_v3 (((cfg0.win 7).blk t).view.emb (ix2 k j)) = _
  rw [he]
  exact (congrFun (V_v3 m c) (ix2 k j)).trans (transpose_ix2_apply _ _ k j)

theorem blk8 (c : Dev nD) (t : Fin cfg0.N) (j : Fin 64) :
    (iblk m c 8 t : S64.Idx → EReal) (ix1 j) = m ((c : Thread nD τ).loc main_arg8) (ix1 j) := by
  obtain ⟨-, -, -, -, -, -, -, e0⟩ := idx_params t
  have he : ((cfg0.win 8).blk t).view.emb (ix1 j) = ix1 j := funext fun a => Fin.ext (by
    match a with
    | ⟨0, _⟩ => show win0_8.index t (0 : Fin 1) * 64 + 1 * j.val = j.val; omega)
  show V m c main_arg8 (((cfg0.win 8).blk t).view.emb (ix1 j)) = _
  rw [he, V_main_arg8]

/-! ## The body's readings of its blocks are the specification's readings of the arguments -/

theorem keepB_blk (c : Dev nD) (t : Fin cfg0.N) (p : Fin 8192) :
    keepB (iblk m c 0 t) p = keep (m ((c : Thread nD τ).loc main_arg0)) (rowOf t p) := funext fun k => blk0 m c t p _
theorem movedB_blk (c : Dev nD) (t : Fin cfg0.N) (p : Fin 8192) :
    movedB (iblk m c 0 t) p = moved (m ((c : Thread nD τ).loc main_arg0)) (rowOf t p) := funext fun k => blk0 m c t p _
theorem whT_blk1 (c : Dev nD) (t : Fin cfg0.N) : whT (iblk m c 1 t) = wh (m ((c : Thread nD τ).loc main_arg1)) :=
  funext fun i => funext fun j => funext fun k => blk1 m c t i k j
theorem bh_blk2 (c : Dev nD) (t : Fin cfg0.N) : bh (iblk m c 2 t) = bh (m ((c : Thread nD τ).loc main_arg2)) :=
  funext fun i => funext fun j => blk2 m c t i j
theorem woT_blk3 (c : Dev nD) (t : Fin cfg0.N) : woT (iblk m c 3 t) = wo (m ((c : Thread nD τ).loc main_arg3)) :=
  funext fun j => funext fun k => blk3 m c t k j
theorem bo_blk4 (c : Dev nD) (t : Fin cfg0.N) : bo (iblk m c 4 t) = bo (m ((c : Thread nD τ).loc main_arg4)) :=
  funext fun j => blk4 m c t j
theorem whT_blk5 (c : Dev nD) (t : Fin cfg0.N) : whT (iblk m c 5 t) = wh (m ((c : Thread nD τ).loc main_arg5)) :=
  funext fun i => funext fun j => funext fun k => blk5 m c t i k j
theorem bh_blk6 (c : Dev nD) (t : Fin cfg0.N) : bh (iblk m c 6 t) = bh (m ((c : Thread nD τ).loc main_arg6)) :=
  funext fun i => funext fun j => blk6 m c t i j
theorem woT_blk7 (c : Dev nD) (t : Fin cfg0.N) : woT (iblk m c 7 t) = wo (m ((c : Thread nD τ).loc main_arg7)) :=
  funext fun j => funext fun k => blk7 m c t k j
theorem bo_blk8 (c : Dev nD) (t : Fin cfg0.N) : bo (iblk m c 8 t) = bo (m ((c : Thread nD τ).loc main_arg8)) :=
  funext fun j => blk8 m c t j

/-- The shift network on row `p` of block `t` is the specification's on row `8192·t + p`. -/
theorem netB_shift (c : Dev nD) (t : Fin cfg0.N) (p : Fin 8192) :
    netB (iblk m c 0 t) (iblk m c 1 t) (iblk m c 2 t) (iblk m c 3 t) (iblk m c 4 t) p
      = net (m ((c : Thread nD τ).loc main_arg0)) (m ((c : Thread nD τ).loc main_arg1)) (m ((c : Thread nD τ).loc main_arg2)) (m ((c : Thread nD τ).loc main_arg3)) (m ((c : Thread nD τ).loc main_arg4)) (rowOf t p) := by
  unfold netB net
  rw [whT_blk1, bh_blk2, woT_blk3, bo_blk4, keepB_blk]

/-- The log-scale network likewise. -/
theorem netB_scale (c : Dev nD) (t : Fin cfg0.N) (p : Fin 8192) :
    netB (iblk m c 0 t) (iblk m c 5 t) (iblk m c 6 t) (iblk m c 7 t) (iblk m c 8 t) p
      = net (m ((c : Thread nD τ).loc main_arg0)) (m ((c : Thread nD τ).loc main_arg5)) (m ((c : Thread nD τ).loc main_arg6)) (m ((c : Thread nD τ).loc main_arg7)) (m ((c : Thread nD τ).loc main_arg8)) (rowOf t p) := by
  unfold netB net
  rw [whT_blk5, bh_blk6, woT_blk7, bo_blk8, keepB_blk]

/-! ## The first output array -/

/-- What point `t` writes back to the first output is block `t` of the specification's array. -/
theorem flushed9_eq (c : Dev nD) (t : Fin cfg0.N) :
    (dats m 0 c).flushed 9 t = ((cfg0.win 9).blk t).view.read (Elt Ideal)
      (Gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 9).cut (grid0.coords t) ((dats m 0 c).after 9 t) = _
  rw [after0_9]
  obtain ⟨-, -, e0, e1, -, -⟩ := idx_facts t
  funext y
  obtain ⟨p, q, rfl⟩ : ∃ (p : Fin 8192) (q : Fin 128), y = ix2 p q := ⟨y 0, y 1, eq_ix2 y⟩
  show out0_9 (F := Ideal) (iblk m c 0 t) (iblk m c 1 t) (iblk m c 2 t) (iblk m c 3 t) (iblk m c 4 t) (iblk m c 5 t) (iblk m c 6 t) (iblk m c 7 t) (iblk m c 8 t) (ix2 p q)
    = Gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb (ix2 p q))
  have he : ((cfg0.win 9).blk t).view.emb (ix2 p q) = ix2 (rowOf t p) q := funext fun a => Fin.ext (by
    match a with
    | ⟨0, _⟩ => show win0_9.index t (0 : Fin 2) * 8192 + 1 * p.val = t.val * 8192 + p.val; omega
    | ⟨1, _⟩ => show win0_9.index t (1 : Fin 2) * 128 + 1 * q.val = q.val; omega)
  rw [he, Gy_ix2, out0_9_apply]
  unfold yAt
  rw [keepB_blk, movedB_blk, netB_scale, netB_shift]

/-- An index of the first output array lies in point `t`'s block iff each coordinate lies in the block's range. -/
theorem mem_blk9 (t : Fin cfg0.N) (i : S524288x128.Idx) :
    i ∈ ((cfg0.win 9).blk t).view.set ↔ ∀ a : Fin 2, win0_9.index t a * S8192x128.size a ≤ (i a).val ∧ (i a).val < win0_9.index t a * S8192x128.size a + S8192x128.size a := by
  show i ∈ ((View.whole main_v4_0).slice (win0_9.rect t)).set ↔ _
  rw [View.set_slice_whole, Rect.mem_set_unit]
  exact Iff.rfl

/-- Row `r` lies in the block of point `r / 8192`: the 64 blocks tile the array. -/
theorem cover9 (i : S524288x128.Idx) :
    ∃ t : Fin cfg0.N, (cfg0.win 9).flush t = true ∧ i ∈ ((cfg0.win 9).blk t).view.set := by
  have hN : cfg0.N = 64 := N_0
  have hi0 : (i 0).val < 524288 := (i 0).isLt
  have hi1 : (i 1).val < 128 := (i 1).isLt
  let t : Fin cfg0.N := ⟨(i 0).val / 8192, by omega⟩
  have ht : t.val = (i 0).val / 8192 := rfl
  obtain ⟨-, -, e0, e1, -, -⟩ := idx_facts t
  refine ⟨t, flush0_9 t, ?_⟩
  rw [mem_blk9]
  intro a
  match a with
  | ⟨0, _⟩ => show win0_9.index t (0 : Fin 2) * 8192 ≤ (i 0).val ∧ (i 0).val < win0_9.index t (0 : Fin 2) * 8192 + 8192; omega
  | ⟨1, _⟩ => show win0_9.index t (1 : Fin 2) * 128 ≤ (i 1).val ∧ (i 1).val < win0_9.index t (1 : Fin 2) * 128 + 128; omega

/-- After the region the first output array is the specification's first array. -/
theorem final9 (c : Dev nD) :
    (dats m 0 c).arrAt 9 cfg0.N = Gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 _ (fun t _ => flushed9_eq m c t) cover9

/-! ## The second output array: a column of row sums -/

/-- The column the region leaves: entry `(r, 0)` is the sum of row `r`'s log-scales. -/
def Gcol (x : SX.Idx → EReal) (sWh : SW3.Idx → EReal) (sBh : SB3.Idx → EReal) (sWo : SW.Idx → EReal) (sBo : SB.Idx → EReal) :
    S524288x1.Idx → EReal :=
  fun i => ldAt x sWh sBh sWo sBo ⟨(i 0).val, (i 0).isLt⟩

/-- What point `t` writes back to the second output is block `t` of that column. -/
theorem flushed10_eq (c : Dev nD) (t : Fin cfg0.N) :
    (dats m 0 c).flushed 10 t = ((cfg0.win 10).blk t).view.read (Elt Ideal)
      (Gcol (m ((c : Thread nD τ).loc main_arg0)) (m ((c : Thread nD τ).loc main_arg5)) (m ((c : Thread nD τ).loc main_arg6)) (m ((c : Thread nD τ).loc main_arg7)) (m ((c : Thread nD τ).loc main_arg8))) := by
  show (cfg0.win 10).cut (grid0.coords t) ((dats m 0 c).after 10 t) = _
  rw [after0_10]
  obtain ⟨-, -, -, -, e0, e1⟩ := idx_facts t
  funext y
  obtain ⟨p, u, rfl⟩ : ∃ (p : Fin 8192) (u : Fin 1), y = ix2 p u := ⟨y 0, y 1, eq_ix2 y⟩
  show out0_10 (F := Ideal) (iblk m c 0 t) (iblk m c 1 t) (iblk m c 2 t) (iblk m c 3 t) (iblk m c 4 t) (iblk m c 5 t) (iblk m c 6 t) (iblk m c 7 t) (iblk m c 8 t) (ix2 p u)
    = Gcol (m ((c : Thread nD τ).loc main_arg0)) (m ((c : Thread nD τ).loc main_arg5)) (m ((c : Thread nD τ).loc main_arg6)) (m ((c : Thread nD τ).loc main_arg7)) (m ((c : Thread nD τ).loc main_arg8)) (((cfg0.win 10).blk t).view.emb (ix2 p u))
  have he : ((cfg0.win 10).blk t).view.emb (ix2 p u) = ix2 (rowOf t p) u := funext fun a => Fin.ext (by
    match a with
    | ⟨0, _⟩ => show win0_10.index t (0 : Fin 2) * 8192 + 1 * p.val = t.val * 8192 + p.val; omega
    | ⟨1, _⟩ => show win0_10.index t (1 : Fin 2) * 1 + 1 * u.val = u.val; omega)
  rw [he, out0_10_apply, netB_scale]
  rfl

theorem mem_blk10 (t : Fin cfg0.N) (i : S524288x1.Idx) :
    i ∈ ((cfg0.win 10).blk t).view.set ↔ ∀ a : Fin 2, win0_10.index t a * S8192x1.size a ≤ (i a).val ∧ (i a).val < win0_10.index t a * S8192x1.size a + S8192x1.size a := by
  show i ∈ ((View.whole main_v4_1).slice (win0_10.rect t)).set ↔ _
  rw [View.set_slice_whole, Rect.mem_set_unit]
  exact Iff.rfl

theorem cover10 (i : S524288x1.Idx) :
    ∃ t : Fin cfg0.N, (cfg0.win 10).flush t = true ∧ i ∈ ((cfg0.win 10).blk t).view.set := by
  have hN : cfg0.N = 64 := N_0
  have hi0 : (i 0).val < 524288 := (i 0).isLt
  have hi1 : (i 1).val < 1 := (i 1).isLt
  let t : Fin cfg0.N := ⟨(i 0).val / 8192, by omega⟩
  have ht : t.val = (i 0).val / 8192 := rfl
  obtain ⟨-, -, -, -, e0, e1⟩ := idx_facts t
  refine ⟨t, flush0_10 t, ?_⟩
  rw [mem_blk10]
  intro a
  match a with
  | ⟨0, _⟩ => show win0_10.index t (0 : Fin 2) * 8192 ≤ (i 0).val ∧ (i 0).val < win0_10.index t (0 : Fin 2) * 8192 + 8192; omega
  | ⟨1, _⟩ => show win0_10.index t (1 : Fin 2) * 1 ≤ (i 1).val ∧ (i 1).val < win0_10.index t (1 : Fin 2) * 1 + 1; omega

/-- After the region the second output array is the column of row sums. -/
theorem final10 (c : Dev nD) :
    (dats m 0 c).arrAt 10 cfg0.N = Gcol (m ((c : Thread nD τ).loc main_arg0)) (m ((c : Thread nD τ).loc main_arg5)) (m ((c : Thread nD τ).loc main_arg6)) (m ((c : Thread nD τ).loc main_arg7)) (m ((c : Thread nD τ).loc main_arg8)) :=
  (dats m 0 c).arrAt_eq_of_cover 10 _ (fun t _ => flushed10_eq m c t) cover10

/-! ## The host's last operation: the column read as a vector -/

theorem tail_v5 (c : Dev nD) :
    Pipeline.afterTail₀ cfgs (dats m) 0 (V0 m) [hostOps1] c main_v5
      = Gld (m ((c : Thread nD τ).loc main_arg0)) (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.tc.devRef main_v4_1)
      = Gcol (m ((c : Thread nD τ).loc main_arg0)) (m ((c : Thread nD τ).loc main_arg5)) (m ((c : Thread nD τ).loc main_arg6)) (m ((c : Thread nD τ).loc main_arg7)) (m ((c : Thread nD τ).loc main_arg8)) :=
    (Pipeline.withArrays_arr spec0 launch0.win.arr_inj c _ _ 10).trans (final10 m c)
  funext i
  obtain ⟨r, rfl⟩ : ∃ r : Fin 524288, i = ix1 r := ⟨i 0, eq_ix1 i⟩
  show shapeCast S524288 (Pipeline.withArrays (cfgs 0).spec c (V0 m c) (fun w => (dats m 0 c).arrAt w (cfgs 0).N) (Proc.tc.devRef main_v4_1))
    shapeCasts_S524288x1_S524288 (ix1 r) = _
  rw [hw]
  refine (shapeCast_apply _ shapeCasts_S524288x1_S524288 (ix1 r) (ix2 r (0 : Fin 1)) ?_).trans ?_
  · rw [Shape.rowMajor_val_two, Shape.rowMajor_val_one]
    show r.val * 1 + 0 = r.val
    omega
  · rfl

/-! ## The run -/

/-- Every weakly fair execution of the kernel program ends with its two results at the specification's arrays of the
    arguments, the arguments unchanged. -/
theorem run : θ_run defs (onTc (τ := τ) (main (F := Ideal))) ⟨m, fun _ => 0, ρ⟩ (fun r => ∀ c : Dev nD,
      r.2.mem ((c.tc : Thread nD τ).loc main_v4_0) = Gy (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v5) = Gld (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 9).trans (final9 m c),
      ((h c).2 main_v5 (Pipeline.mem_restRefs_of main_v5 (by decide) (by decide))).trans (tail_v5 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c)))⟩)
    (run_main m ρ)

end Cert.KernelIdeal.KValue

end
-- ==== Proof.RefValue.lean ====
/-
  The reference program's two results are the coupling layer of the specification, entry by entry.

  The reference slices the kept and the moved half off every row, runs the two networks on the kept half
  (each layer a product with a transposed weight matrix plus a broadcast bias, the hidden ones followed by the
  maximum with zero), clamps the log-scale between the integers -5 and 3 made floats, and joins the kept half to
  `moved · exp (clamped) + shift`; its second result sums each row's log-scales from zero.
-/
import proofs.«178531_j34583076667869_1_alg».proof.Proof.Gen.ReferenceIdeal.Read
import proofs.«178531_j34583076667869_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.Coupling Idealize.ShloMosaic
  Idealize.ShloMosaic.ValueIdx

/-! ## Weights read at coordinates

A hidden layer's weight stage is a slice of the stack of three matrices, the slice with its unit axis dropped, then
the transpose: at `(k, j)` it is entry `(c, j, k)` of the stack. Dropping the unit axis goes through the row-major
position `j · 64 + k`, whose quotient and remainder by 64 are `j` and `k`. An output layer's weight stage is the
transpose alone. -/

theorem w4 (x1 : FVec Ideal S3x64x64 .f32) (k j : Fin 64) :
    val_main_v4 (F := Ideal) x1 (ix2 k j) = wh x1 0 j k := by
  rw [val_main_v4_apply, val_main_v3_apply, val_main_v2_apply]
  unfold wh
  refine congrArg x1 (funext fun a => Fin.ext ?_)
  match a with
  | ⟨0, _⟩ => rfl
  | ⟨1, _⟩ => show (j.val * 64 + k.val) / 64 % 64 = j.val; omega
  | ⟨2, _⟩ => show (j.val * 64 + k.val) % 64 = k.val; omega

theorem w14 (x1 : FVec Ideal S3x64x64 .f32) (k j : Fin 64) :
    val_main_v14 (F := Ideal) x1 (ix2 k j) = wh x1 1 j k := by
  rw [val_main_v14_apply, val_main_v13_apply, val_main_v12_apply]
  unfold wh
  refine congrArg x1 (funext fun a => Fin.ext ?_)
  match a with
  | ⟨0, _⟩ => rfl
  | ⟨1, _⟩ => show (j.val * 64 + k.val) / 64 % 64 = j.val; omega
  | ⟨2, _⟩ => show (j.val * 64 + k.val) % 64 = k.val; omega

theorem w24 (x1 : FVec Ideal S3x64x64 .f32) (k j : Fin 64) :
    val_main_v24 (F := Ideal) x1 (ix2 k j) = wh x1 2 j k := by
  rw [val_main_v24_apply, val_main_v23_apply, val_main_v22_apply]
  unfold wh
  refine congrArg x1 (funext fun a => Fin.ext ?_)
  match a with
  | ⟨0, _⟩ => rfl
  | ⟨1, _⟩ => show (j.val * 64 + k.val) / 64 % 64 = j.val; omega
  | ⟨2, _⟩ => show (j.val * 64 + k.val) % 64 = k.val; omega

theorem w32 (x3 : FVec Ideal S64x64 .f32) (k j : Fin 64) :
    val_main_v32 (F := Ideal) x3 (ix2 k j) = wo x3 j k := by
  rw [val_main_v32_apply]
  unfold wo
  refine congrArg x3 (funext fun a => Fin.ext ?_)
  match a with
  | ⟨0, _⟩ => rfl
  | ⟨1, _⟩ => rfl

theorem w39 (x5 : FVec Ideal S3x64x64 .f32) (k j : Fin 64) :
    val_main_v39 (F := Ideal) x5 (ix2 k j) = wh x5 0 j k := by
  rw [val_main_v39_apply, val_main_v38_apply, val_main_v37_apply]
  unfold wh
  refine congrArg x5 (funext fun a => Fin.ext ?_)
  match a with
  | ⟨0, _⟩ => rfl
  | ⟨1, _⟩ => show (j.val * 64 + k.val) / 64 % 64 = j.val; omega
  | ⟨2, _⟩ => show (j.val * 64 + k.val) % 64 = k.val; omega

theorem w49 (x5 : FVec Ideal S3x64x64 .f32) (k j : Fin 64) :
    val_main_v49 (F := Ideal) x5 (ix2 k j) = wh x5 1 j k := by
  rw [val_main_v49_apply, val_main_v48_apply, val_main_v47_apply]
  unfold wh
  refine congrArg x5 (funext fun a => Fin.ext ?_)
  match a with
  | ⟨0, _⟩ => rfl
  | ⟨1, _⟩ => show (j.val * 64 + k.val) / 64 % 64 = j.val; omega
  | ⟨2, _⟩ => show (j.val * 64 + k.val) % 64 = k.val; omega

theorem w59 (x5 : FVec Ideal S3x64x64 .f32) (k j : Fin 64) :
    val_main_v59 (F := Ideal) x5 (ix2 k j) = wh x5 2 j k := by
  rw [val_main_v59_apply, val_main_v58_apply, val_main_v57_apply]
  unfold wh
  refine congrArg x5 (funext fun a => Fin.ext ?_)
  match a with
  | ⟨0, _⟩ => rfl
  | ⟨1, _⟩ => show (j.val * 64 + k.val) / 64 % 64 = j.val; omega
  | ⟨2, _⟩ => show (j.val * 64 + k.val) % 64 = k.val; omega

theorem w67 (x7 : FVec Ideal S64x64 .f32) (k j : Fin 64) :
    val_main_v67 (F := Ideal) x7 (ix2 k j) = wo x7 j k := by
  rw [val_main_v67_apply]
  unfold wo
  refine congrArg x7 (funext fun a => Fin.ext ?_)
  match a with
  | ⟨0, _⟩ => rfl
  | ⟨1, _⟩ => rfl

/-! ## Biases read at coordinates

A hidden layer's bias stage is a slice of the stack of three biases, the unit axis dropped, then two broadcasts
(to one row, then to every row): at `(r, j)` it is entry `(c, j)` of the stack. An output layer's is the two
broadcasts alone. -/

theorem b9 (x2 : FVec Ideal S3x64 .f32) (r : Fin 524288) (j : Fin 64) :
    val_main_v9 (F := Ideal) x2 (ix2 r j) = bh x2 0 j := by
  rw [val_main_v9_apply, val_main_v8_apply, val_main_v7_apply, val_main_v6_apply]
  unfold bh
  refine congrArg x2 (funext fun a => Fin.ext ?_)
  match a with
  | ⟨0, _⟩ => rfl
  | ⟨1, _⟩ => show j.val % 64 = j.val; omega

theorem b19 (x2 : FVec Ideal S3x64 .f32) (r : Fin 524288) (j : Fin 64) :
    val_main_v19 (F := Ideal) x2 (ix2 r j) = bh x2 1 j := by
  rw [val_main_v19_apply, val_main_v18_apply, val_main_v17_apply, val_main_v16_apply]
  unfold bh
  refine congrArg x2 (funext fun a => Fin.ext ?_)
  match a with
  | ⟨0, _⟩ => rfl
  | ⟨1, _⟩ => show j.val % 64 = j.val; omega

theorem b29 (x2 : FVec Ideal S3x64 .f32) (r : Fin 524288) (j : Fin 64) :
    val_main_v29 (F := Ideal) x2 (ix2 r j) = bh x2 2 j := by
  rw [val_main_v29_apply, val_main_v28_apply, val_main_v27_apply, val_main_v26_apply]
  unfold bh
  refine congrArg x2 (funext fun a => Fin.ext ?_)
  match a with
  | ⟨0, _⟩ => rfl
  | ⟨1, _⟩ => show j.val % 64 = j.val; omega

theorem b35 (x4 : FVec Ideal S64 .f32) (r : Fin 524288) (j : Fin 64) :
    val_main_v35 (F := Ideal) x4 (ix2 r j) = bo x4 j := by
  rw [val_main_v35_apply, val_main_v34_apply]
  unfold bo
  refine congrArg x4 (funext fun a => Fin.ext ?_)
  match a with
  | ⟨0, _⟩ => rfl

theorem b44 (x6 : FVec Ideal S3x64 .f32) (r : Fin 524288) (j : Fin 64) :
    val_main_v44 (F := Ideal) x6 (ix2 r j) = bh x6 0 j := by
  rw [val_main_v44_apply, val_main_v43_apply, val_main_v42_apply, val_main_v41_apply]
  unfold bh
  refine congrArg x6 (funext fun a => Fin.ext ?_)
  match a with
  | ⟨0, _⟩ => rfl
  | ⟨1, _⟩ => show j.val % 64 = j.val; omega

theorem b54 (x6 : FVec Ideal S3x64 .f32) (r : Fin 524288) (j : Fin 64) :
    val_main_v54 (F := Ideal) x6 (ix2 r j) = bh x6 1 j := by
  rw [val_main_v54_apply, val_main_v53_apply, val_main_v52_apply, val_main_v51_apply]
  unfold bh
  refine congrArg x6 (funext fun a => Fin.ext ?_)
  match a with
  | ⟨0, _⟩ => rfl
  | ⟨1, _⟩ => show j.val % 64 = j.val; omega

theorem b64 (x6 : FVec Ideal S3x64 .f32) (r : Fin 524288) (j : Fin 64) :
    val_main_v64 (F := Ideal) x6 (ix2 r j) = bh x6 2 j := by
  rw [val_main_v64_apply, val_main_v63_apply, val_main_v62_apply, val_main_v61_apply]
  unfold bh
  refine congrArg x6 (funext fun a => Fin.ext ?_)
  match a with
  | ⟨0, _⟩ => rfl
  | ⟨1, _⟩ => show j.val % 64 = j.val; omega

theorem b70 (x8 : FVec Ideal S64 .f32) (r : Fin 524288) (j : Fin 64) :
    val_main_v70 (F := Ideal) x8 (ix2 r j) = bo x8 j := by
  rw [val_main_v70_apply, val_main_v69_apply]
  unfold bo
  refine congrArg x8 (funext fun a => Fin.ext ?_)
  match a with
  | ⟨0, _⟩ => rfl

/-! ## The ramp's zero: the zero word broadcast to every entry -/

theorem z0 (i : S524288x64.Idx) : val_main_call0_v0 (F := Ideal) i = Ideal.ofBits .f32 0x00000000#32 := by
  rw [val_main_call0_v0_apply, val_main_call0_cst_apply]; rfl

theorem z1 (i : S524288x64.Idx) : val_main_call1_v0 (F := Ideal) i = Ideal.ofBits .f32 0x00000000#32 := by
  rw [val_main_call1_v0_apply, val_main_call1_cst_apply]; rfl

theorem z2 (i : S524288x64.Idx) : val_main_call2_v0 (F := Ideal) i = Ideal.ofBits .f32 0x00000000#32 := by
  rw [val_main_call2_v0_apply, val_main_call2_cst_apply]; rfl

theorem z3 (i : S524288x64.Idx) : val_main_call3_v0 (F := Ideal) i = Ideal.ofBits .f32 0x00000000#32 := by
  rw [val_main_call3_v0_apply, val_main_call3_cst_apply]; rfl

theorem z4 (i : S524288x64.Idx) : val_main_call4_v0 (F := Ideal) i = Ideal.ofBits .f32 0x00000000#32 := by
  rw [val_main_call4_v0_apply, val_main_call4_cst_apply]; rfl

theorem z5 (i : S524288x64.Idx) : val_main_call5_v0 (F := Ideal) i = Ideal.ofBits .f32 0x00000000#32 := by
  rw [val_main_call5_v0_apply, val_main_call5_cst_apply]; rfl

/-! ## One layer at a time

A layer's product at `(r, j)` is the sum over `k` of its left operand at `(r, k)` times its right operand at
`(k, j)`; with the right operand a transposed weight matrix this is the specification's sum for output `j`. -/

/-- The sum of a product's entry `(r, j)`, its two index families named `L` and `R`, as the specification writes it. -/
theorem layer_sum (prev : S524288x64.Idx → EReal) (WT : S64x64.Idx → EReal) (W : Fin 64 → Fin 64 → EReal)
    (L : Fin 64 → S524288x64.Idx) (R : Fin 64 → S64x64.Idx) (r : Fin 524288) (j : Fin 64)
    (hL : ∀ k, L k = ix2 r k) (hR : ∀ k, R k = ix2 k j) (hW : ∀ k, WT (ix2 k j) = W j k) :
    ∑ k : Fin 64, prev (L k) * WT (R k) = ∑ k : Fin 64, prev (ix2 r k) * W j k :=
  Finset.sum_congr rfl fun k _ => by rw [hL k, hR k, hW k]

/-- The left index family of every product here: row `r`, column `k`. -/
theorem left_idx (r : Fin 524288) (j k : Fin 64) : lidx_main_v5 (ix2 r j) k = ix2 r k :=
  funext fun a => Fin.ext (by
    match a with
    | ⟨0, _⟩ => rfl
    | ⟨1, _⟩ => rfl)

/-- The right index family of every product here: row `k`, column `j`. -/
theorem right_idx (r : Fin 524288) (j k : Fin 64) : ridx_main_v5 (ix2 r j) k = ix2 k j :=
  funext fun a => Fin.ext (by
    match a with
    | ⟨0, _⟩ => rfl
    | ⟨1, _⟩ => rfl)

theorem h1 (x0 : FVec Ideal S524288x128 .f32) (x1 : FVec Ideal S3x64x64 .f32) (x2 : FVec Ideal S3x64 .f32)
    (r : Fin 524288) (j : Fin 64) :
    val_main_v11 (F := Ideal) x0 x1 x2 (ix2 r j)
      = Coupling.hidden (wh x1 0) (bh x2 0) (fun k => val_main_v0 (F := Ideal) x0 (ix2 r k)) j := by
  rw [val_main_v11_apply, val_main_v10_apply, val_main_v5_apply, z0, b9]
  unfold Coupling.hidden affine
  refine congrArg₂ max (congrArg₂ (· + ·) ?_ rfl) rfl
  exact layer_sum _ _ _ _ _ r j (left_idx r j) (right_idx r j) fun k => w4 x1 k j

theorem h2 (x0 : FVec Ideal S524288x128 .f32) (x1 : FVec Ideal S3x64x64 .f32) (x2 : FVec Ideal S3x64 .f32)
    (r : Fin 524288) (j : Fin 64) :
    val_main_v21 (F := Ideal) x0 x1 x2 (ix2 r j)
      = Coupling.hidden (wh x1 1) (bh x2 1) (fun k => val_main_v11 (F := Ideal) x0 x1 x2 (ix2 r k)) j := by
  rw [val_main_v21_apply, val_main_v20_apply, val_main_v15_apply, z1, b19]
  unfold Coupling.hidden affine
  refine congrArg₂ max (congrArg₂ (· + ·) ?_ rfl) rfl
  exact layer_sum _ _ _ _ _ r j (left_idx r j) (right_idx r j) fun k => w14 x1 k j

theorem h3 (x0 : FVec Ideal S524288x128 .f32) (x1 : FVec Ideal S3x64x64 .f32) (x2 : FVec Ideal S3x64 .f32)
    (r : Fin 524288) (j : Fin 64) :
    val_main_v31 (F := Ideal) x0 x1 x2 (ix2 r j)
      = Coupling.hidden (wh x1 2) (bh x2 2) (fun k => val_main_v21 (F := Ideal) x0 x1 x2 (ix2 r k)) j := by
  rw [val_main_v31_apply, val_main_v30_apply, val_main_v25_apply, z2, b29]
  unfold Coupling.hidden affine
  refine congrArg₂ max (congrArg₂ (· + ·) ?_ rfl) rfl
  exact layer_sum _ _ _ _ _ r j (left_idx r j) (right_idx r j) fun k => w24 x1 k j

theorem o36 (x0 : FVec Ideal S524288x128 .f32) (x1 : FVec Ideal S3x64x64 .f32) (x2 : FVec Ideal S3x64 .f32)
    (x3 : FVec Ideal S64x64 .f32) (x4 : FVec Ideal S64 .f32) (r : Fin 524288) (j : Fin 64) :
    val_main_v36 (F := Ideal) x0 x1 x2 x3 x4 (ix2 r j)
      = affine (wo x3) (bo x4) (fun k => val_main_v31 (F := Ideal) x0 x1 x2 (ix2 r k)) j := by
  rw [val_main_v36_apply, val_main_v33_apply, b35]
  unfold affine
  refine congrArg₂ (· + ·) ?_ rfl
  exact layer_sum _ _ _ _ _ r j (left_idx r j) (right_idx r j) fun k => w32 x3 k j

theorem g1 (x0 : FVec Ideal S524288x128 .f32) (x5 : FVec Ideal S3x64x64 .f32) (x6 : FVec Ideal S3x64 .f32)
    (r : Fin 524288) (j : Fin 64) :
    val_main_v46 (F := Ideal) x0 x5 x6 (ix2 r j)
      = Coupling.hidden (wh x5 0) (bh x6 0) (fun k => val_main_v0 (F := Ideal) x0 (ix2 r k)) j := by
  rw [val_main_v46_apply, val_main_v45_apply, val_main_v40_apply, z3, b44]
  unfold Coupling.hidden affine
  refine congrArg₂ max (congrArg₂ (· + ·) ?_ rfl) rfl
  exact layer_sum _ _ _ _ _ r j (left_idx r j) (right_idx r j) fun k => w39 x5 k j

theorem g2 (x0 : FVec Ideal S524288x128 .f32) (x5 : FVec Ideal S3x64x64 .f32) (x6 : FVec Ideal S3x64 .f32)
    (r : Fin 524288) (j : Fin 64) :
    val_main_v56 (F := Ideal) x0 x5 x6 (ix2 r j)
      = Coupling.hidden (wh x5 1) (bh x6 1) (fun k => val_main_v46 (F := Ideal) x0 x5 x6 (ix2 r k)) j := by
  rw [val_main_v56_apply, val_main_v55_apply, val_main_v50_apply, z4, b54]
  unfold Coupling.hidden affine
  refine congrArg₂ max (congrArg₂ (· + ·) ?_ rfl) rfl
  exact layer_sum _ _ _ _ _ r j (left_idx r j) (right_idx r j) fun k => w49 x5 k j

theorem g3 (x0 : FVec Ideal S524288x128 .f32) (x5 : FVec Ideal S3x64x64 .f32) (x6 : FVec Ideal S3x64 .f32)
    (r : Fin 524288) (j : Fin 64) :
    val_main_v66 (F := Ideal) x0 x5 x6 (ix2 r j)
      = Coupling.hidden (wh x5 2) (bh x6 2) (fun k => val_main_v56 (F := Ideal) x0 x5 x6 (ix2 r k)) j := by
  rw [val_main_v66_apply, val_main_v65_apply, val_main_v60_apply, z5, b64]
  unfold Coupling.hidden affine
  refine congrArg₂ max (congrArg₂ (· + ·) ?_ rfl) rfl
  exact layer_sum _ _ _ _ _ r j (left_idx r j) (right_idx r j) fun k => w59 x5 k j

theorem o71 (x0 : FVec Ideal S524288x128 .f32) (x5 : FVec Ideal S3x64x64 .f32) (x6 : FVec Ideal S3x64 .f32)
    (x7 : FVec Ideal S64x64 .f32) (x8 : FVec Ideal S64 .f32) (r : Fin 524288) (j : Fin 64) :
    val_main_v71 (F := Ideal) x0 x5 x6 x7 x8 (ix2 r j)
      = affine (wo x7) (bo x8) (fun k => val_main_v66 (F := Ideal) x0 x5 x6 (ix2 r k)) j := by
  rw [val_main_v71_apply, val_main_v68_apply, b70]
  unfold affine
  refine congrArg₂ (· + ·) ?_ rfl
  exact layer_sum _ _ _ _ _ r j (left_idx r j) (right_idx r j) fun k => w67 x7 k j

/-! ## The two halves of a row and the two networks -/

/-- Row `r` of the first slice is the row's kept half. -/
theorem kept_row (x0 : FVec Ideal S524288x128 .f32) (r : Fin 524288) :
    (fun k => val_main_v0 (F := Ideal) x0 (ix2 r k)) = keep x0 r := by
  funext k
  rw [val_main_v0_apply]
  unfold keep
  refine congrArg x0 (funext fun a => Fin.ext ?_)
  match a with
  | ⟨0, _⟩ => rfl
  | ⟨1, _⟩ => rfl

/-- Row `r` of the second slice is the row's moved half. -/
theorem moved_row (x0 : FVec Ideal S524288x128 .f32) (r : Fin 524288) (k : Fin 64) :
    val_main_v1 (F := Ideal) x0 (ix2 r k) = moved x0 r k := by
  rw [val_main_v1_apply]
  unfold moved
  refine congrArg x0 (funext fun a => Fin.ext ?_)
  match a with
  | ⟨0, _⟩ => rfl
  | ⟨1, _⟩ => rfl

/-- The shift network's last stage is the specification's network on the first four parameter arrays. -/
theorem shift_net (x0 : FVec Ideal S524288x128 .f32) (x1 : FVec Ideal S3x64x64 .f32) (x2 : FVec Ideal S3x64 .f32)
    (x3 : FVec Ideal S64x64 .f32) (x4 : FVec Ideal S64 .f32) (r : Fin 524288) (j : Fin 64) :
    val_main_v36 (F := Ideal) x0 x1 x2 x3 x4 (ix2 r j) = net x0 x1 x2 x3 x4 r j := by
  have e3 : (fun k => val_main_v31 (F := Ideal) x0 x1 x2 (ix2 r k))
      = Coupling.hidden (wh x1 2) (bh x2 2) (fun k => val_main_v21 (F := Ideal) x0 x1 x2 (ix2 r k)) :=
    funext fun k => h3 x0 x1 x2 r k
  have e2 : (fun k => val_main_v21 (F := Ideal) x0 x1 x2 (ix2 r k))
      = Coupling.hidden (wh x1 1) (bh x2 1) (fun k => val_main_v11 (F := Ideal) x0 x1 x2 (ix2 r k)) :=
    funext fun k => h2 x0 x1 x2 r k
  have e1 : (fun k => val_main_v11 (F := Ideal) x0 x1 x2 (ix2 r k))
      = Coupling.hidden (wh x1 0) (bh x2 0) (fun k => val_main_v0 (F := Ideal) x0 (ix2 r k)) :=
    funext fun k => h1 x0 x1 x2 r k
  rw [o36, e3, e2, e1, kept_row]
  rfl

/-- The log-scale network's last stage is the specification's network on the last four parameter arrays. -/
theorem scale_net (x0 : FVec Ideal S524288x128 .f32) (x5 : FVec Ideal S3x64x64 .f32) (x6 : FVec Ideal S3x64 .f32)
    (x7 : FVec Ideal S64x64 .f32) (x8 : FVec Ideal S64 .f32) (r : Fin 524288) (j : Fin 64) :
    val_main_v71 (F := Ideal) x0 x5 x6 x7 x8 (ix2 r j) = net x0 x5 x6 x7 x8 r j := by
  have e3 : (fun k => val_main_v66 (F := Ideal) x0 x5 x6 (ix2 r k))
      = Coupling.hidden (wh x5 2) (bh x6 2) (fun k => val_main_v56 (F := Ideal) x0 x5 x6 (ix2 r k)) :=
    funext fun k => g3 x0 x5 x6 r k
  have e2 : (fun k => val_main_v56 (F := Ideal) x0 x5 x6 (ix2 r k))
      = Coupling.hidden (wh x5 1) (bh x6 1) (fun k => val_main_v46 (F := Ideal) x0 x5 x6 (ix2 r k)) :=
    funext fun k => g2 x0 x5 x6 r k
  have e1 : (fun k => val_main_v46 (F := Ideal) x0 x5 x6 (ix2 r k))
      = Coupling.hidden (wh x5 0) (bh x6 0) (fun k => val_main_v0 (F := Ideal) x0 (ix2 r k)) :=
    funext fun k => g1 x0 x5 x6 r k
  rw [o71, e3, e2, e1, kept_row]
  rfl

/-! ## The clamp, the exponential and the join -/

/-- The lower bound, the integer -5 made a float, is the real -5 everywhere. -/
theorem lo (i : S524288x64.Idx) : val_main_call6_v1 (F := Ideal) i = ((-5 : ℝ) : EReal) := by
  rw [val_main_call6_v1_apply, val_main_call6_v0_apply, val_main_c_apply]
  exact sitofp_neg_five

/-- The upper bound, the integer 3 made a float, is the real 3 everywhere. -/
theorem hi (i : S524288x64.Idx) : val_main_call6_v4 (F := Ideal) i = ((3 : ℝ) : EReal) := by
  rw [val_main_call6_v4_apply, val_main_call6_v3_apply, val_main_c_0_apply]
  exact sitofp_three

/-- The moved half's new value: moved times the exponential of the clamped log-scale, plus the shift. -/
theorem moved_new (x0 : FVec Ideal S524288x128 .f32) (x1 : FVec Ideal S3x64x64 .f32) (x2 : FVec Ideal S3x64 .f32)
    (x3 : FVec Ideal S64x64 .f32) (x4 : FVec Ideal S64 .f32) (x5 : FVec Ideal S3x64x64 .f32) (x6 : FVec Ideal S3x64 .f32)
    (x7 : FVec Ideal S64x64 .f32) (x8 : FVec Ideal S64 .f32) (r : Fin 524288) (j : Fin 64) :
    val_main_v75 (F := Ideal) x0 x1 x2 x3 x4 x5 x6 x7 x8 (ix2 r j)
      = moved x0 r j * Ideal.exp (clamp (net x0 x5 x6 x7 x8 r j)) + net x0 x1 x2 x3 x4 r j := by
  rw [val_main_v75_apply, val_main_v74_apply, val_main_v73_apply, val_main_v72_apply, val_main_call6_v2_apply,
    lo, hi, shift_net, scale_net, moved_row]
  rfl

/-- The reference's first result is the specification's array. -/
theorem ref_y (x0 : FVec Ideal S524288x128 .f32) (x1 : FVec Ideal S3x64x64 .f32) (x2 : FVec Ideal S3x64 .f32)
    (x3 : FVec Ideal S64x64 .f32) (x4 : FVec Ideal S64 .f32) (x5 : FVec Ideal S3x64x64 .f32) (x6 : FVec Ideal S3x64 .f32)
    (x7 : FVec Ideal S64x64 .f32) (x8 : FVec Ideal S64 .f32) :
    val_main_v76 (F := Ideal) x0 x1 x2 x3 x4 x5 x6 x7 x8 = Gy x0 x1 x2 x3 x4 x5 x6 x7 x8 := by
  funext i
  obtain ⟨r, q, rfl⟩ : ∃ (r : Fin 524288) (q : Fin 128), i = ix2 r q := ⟨i 0, i 1, eq_ix2 i⟩
  rw [Gy_ix2]
  unfold yAt yRow val_main_v76
  by_cases hq : q.val < 64
  · -- a kept column lies in the first piece of the join
    rw [dif_pos hq]
    rw [concatenate_pair_apply_left (t := S524288x128) (s₁ := S524288x64) (s₂ := S524288x64) (1 : Fin 2) _ _ _
      (ix2 r q) rfl (ix2 r (⟨q.val, hq⟩ : Fin 64)) (fun b => by match b with | ⟨0, _⟩ => rfl | ⟨1, _⟩ => rfl)]
    exact congrFun (kept_row x0 r) ⟨q.val, hq⟩
  · -- a moved column lies in the second piece, 64 columns in
    rw [dif_neg hq]
    have hq' : q.val - 64 < 64 := by have := q.isLt; omega
    rw [concatenate_pair_apply_right (t := S524288x128) (s₁ := S524288x64) (s₂ := S524288x64) (1 : Fin 2) _ _ _
      (ix2 r q) rfl rfl (ix2 r (⟨q.val - 64, hq'⟩ : Fin 64))
      (fun b hb => by match b with | ⟨0, _⟩ => rfl | ⟨1, _⟩ => exact absurd rfl hb)
      (by show (q.val - 64) + 64 = q.val; omega)]
    exact moved_new x0 x1 x2 x3 x4 x5 x6 x7 x8 r ⟨q.val - 64, hq'⟩

/-- The reference's second result is the specification's array of row sums. -/
theorem ref_ld (x0 : FVec Ideal S524288x128 .f32) (x5 : FVec Ideal S3x64x64 .f32) (x6 : FVec Ideal S3x64 .f32)
    (x7 : FVec Ideal S64x64 .f32) (x8 : FVec Ideal S64 .f32) :
    val_main_v77 (F := Ideal) x0 x5 x6 x7 x8 = Gld x0 x5 x6 x7 x8 := by
  funext i
  obtain ⟨r, rfl⟩ : ∃ r : Fin 524288, i = ix1 r := ⟨i 0, eq_ix1 i⟩
  rw [Gld_ix1, val_main_v77_apply, val_main_cst_apply]
  unfold ldAt
  rw [show FloatOps.ofBits (F := Ideal) .f32 0x00000000#32 = 0 from Ideal.ofBits_zero_f32, zero_add]
  refine Finset.sum_congr rfl fun k _ => ?_
  rw [← scale_net]
  refine congrArg _ (funext fun a => Fin.ext ?_)
  match a with
  | ⟨0, _⟩ => rfl
  | ⟨1, _⟩ => rfl

end Cert.ReferenceIdeal.RefValue

end
-- ==== Proof.lean ====
/-
  An affine coupling layer with a fixed split: a kernel that walks the input in 64 blocks of 8192 rows against
  the plain array program.

  Each row of 128 numbers keeps its first half. Two small networks (three dense layers with a ramp, then a dense
  layer) read the kept half and give a shift and a log-scale for each of the other 64 entries, which become
  `entry · exp (log-scale clamped to [-5, 3]) + shift`; the second result is each row's sum of log-scales.
  The kernel is handed the weight matrices already transposed and multiplies by them as they are, the array
  program transposes them inside each product; the kernel's clamp bounds are float words, the array program's
  are the integers -5 and 3 made floats. On the extended reals the two programs then perform the very same sums,
  products, maxima, minima and exponentials entry by entry (`Cert.Coupling`), so the equality needs no law of
  arithmetic and never uses that the inputs are finite.

  The frames of the two kernel programs and the kernel program's run are the generated ones; the kernel's results
  are read off that run block by block (`KValue`), the array program's off its generated run (`RefValue`).
-/
import proofs.«178531_j34583076667869_1_alg».proof.Defs
import proofs.«178531_j34583076667869_1_alg».proof.Proof.Gen.Kernel
import proofs.«178531_j34583076667869_1_alg».proof.Proof.Gen.Kernel.Skeleton
import proofs.«178531_j34583076667869_1_alg».proof.Proof.Gen.Kernel.Launch
import proofs.«178531_j34583076667869_1_alg».proof.Proof.Gen.Kernel.Points
import proofs.«178531_j34583076667869_1_alg».proof.Proof.Gen.Kernel.Frame
import proofs.«178531_j34583076667869_1_alg».proof.Proof.Gen.KernelIdeal
import proofs.«178531_j34583076667869_1_alg».proof.Proof.Gen.KernelIdeal.Skeleton
import proofs.«178531_j34583076667869_1_alg».proof.Proof.Gen.KernelIdeal.Launch
import proofs.«178531_j34583076667869_1_alg».proof.Proof.Gen.KernelIdeal.Points
import proofs.«178531_j34583076667869_1_alg».proof.Proof.Gen.KernelIdeal.Frame
import proofs.«178531_j34583076667869_1_alg».proof.Proof.Gen.ReferenceIdeal
import proofs.«178531_j34583076667869_1_alg».proof.Proof.Gen.Pre_finite_inputs
import proofs.«178531_j34583076667869_1_alg».proof.Proof.Gen.ReferenceIdeal.Run
import proofs.«178531_j34583076667869_1_alg».proof.Proof.Gen.ReferenceIdeal.Read
import proofs.«178531_j34583076667869_1_alg».proof.Proof.Spec
import proofs.«178531_j34583076667869_1_alg».proof.Proof.KernelPay
import proofs.«178531_j34583076667869_1_alg».proof.Proof.KernelValue
import proofs.«178531_j34583076667869_1_alg».proof.Proof.RefValue
import Idealize.ShloMosaic.Adequacy
import Idealize.ShloMosaic.Init

noncomputable section

namespace Cert.Proof

open Idealize.ShloMosaic Idealize.SL.Sem

/-- The kernel program as printed runs, its arguments unchanged: the generated frame. -/
theorem frame_k : Cert.frame_Kernel (hKernel := Cert.Kernel.Gen.facts) (hPre_finite_inputs := Cert.Pre_finite_inputs.Gen.facts) :=
  fun m ρ _ => Cert.Kernel.Gen.frame m ρ

/-- The same program read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The array program runs, its arguments unchanged: its generated run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories that agree on the nine arguments both programs end with the specification's two arrays of those
    arguments: the kernel's by its run read block by block, the array program's by its run read entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Coupling.Gy (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Coupling.Gld (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v76_eq, Cert.ReferenceIdeal.RefValue.ref_y,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
  · rw [(h c).2.1, Cert.ReferenceIdeal.Read.val_main_v77_eq, Cert.ReferenceIdeal.RefValue.ref_ld,
      (hagree c).1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
